-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x2048 : Shape := ⟨2, ![4096, 2048]⟩
abbrev S4096x1 : Shape := ⟨2, ![4096, 1]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : IVec S4096x2048 32) (main_arg2 : FVec F S4096x1 .f32) (main_arg3 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x2048 : Shape := ⟨2, ![4096, 2048]⟩
abbrev S4096x1 : Shape := ⟨2, ![4096, 1]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S1x4096 : Shape := ⟨2, ![1, 4096]⟩
abbrev S1024x4096 : Shape := ⟨2, ![1024, 4096]⟩
abbrev S128x2048 : Shape := ⟨2, ![128, 2048]⟩
abbrev S128x1 : Shape := ⟨2, ![128, 1]⟩
abbrev S1x128 : Shape := ⟨2, ![1, 128]⟩
abbrev S1024x128 : Shape := ⟨2, ![1024, 128]⟩
abbrev S1024x512 : Shape := ⟨2, ![1024, 512]⟩
abbrev S128x256 : Shape := ⟨2, ![128, 256]⟩
abbrev S128x256x1 : Shape := ⟨3, ![128, 256, 1]⟩
abbrev S128x256x2 : Shape := ⟨3, ![128, 256, 2]⟩
abbrev S128x512 : Shape := ⟨2, ![128, 512]⟩

abbrev nBuf : Space → Nat
  | .hbm => 7
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S4096x2048, .i32⟩
  | .hbm, ⟨2, _⟩ => ⟨S4096x1, .f32⟩
  | .hbm, ⟨3, _⟩ => ⟨S4096, .f32⟩
  | .hbm, ⟨4, _⟩ => ⟨S16384x4096, .bf16⟩
  | .hbm, ⟨5, _⟩ => ⟨S1x4096, .f32⟩
  | .hbm, ⟨6, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1024x4096, .bf16⟩
  | .local _ .vmem, ⟨5, _⟩ => ⟨S1024x4096, .bf16⟩
  | .local _ .vmem, ⟨6, _⟩ => ⟨S128x2048, .i32⟩
  | .local _ .vmem, ⟨7, _⟩ => ⟨S128x2048, .i32⟩
  | .local _ .vmem, ⟨8, _⟩ => ⟨S128x1, .f32⟩
  | .local _ .vmem, ⟨9, _⟩ => ⟨S128x1, .f32⟩
  | .local _ .vmem, ⟨10, _⟩ => ⟨S1x128, .f32⟩
  | .local _ .vmem, ⟨11, _⟩ => ⟨S1x128, .f32⟩
  | .local _ .vmem, ⟨12, _⟩ => ⟨S1024x128, .f32⟩
  | .local _ .vmem, ⟨13, _⟩ => ⟨S1024x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 32], ![false, false]⟩

@[reducible] def k1_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k1_mult1 (k1_t1 : Fin k1_t1_loop.trips) : BitVec 32 :=
  let c0_i32 : BitVec 32 := 0#32
  let c1_i32 : BitVec 32 := 1#32
  let arg7 : BitVec 32 := Scf.iv c0_i32 c1_i32 k1_t1
  let c512_i32 : BitVec 32 := 512#32
  let v9 : BitVec 32 := Scalar.muli arg7 c512_i32
  v9
def k1_mult2 (k1_t1 : Fin k1_t1_loop.trips) : BitVec 32 :=
  let c0_i32 : BitVec 32 := 0#32
  let c1_i32 : BitVec 32 := 1#32
  let arg7 : BitVec 32 := Scf.iv c0_i32 c1_i32 k1_t1
  let c256_i32 : BitVec 32 := 256#32
  let v11 : BitVec 32 := Scalar.muli arg7 c256_i32
  v11
def k1_off1 (k1_t1 : Fin k1_t1_loop.trips) : Fin 2 → Nat :=
  let c0_6 : Index := 0#32
  let c0_i32 : BitVec 32 := 0#32
  let c1_i32 : BitVec 32 := 1#32
  let arg7 : BitVec 32 := Scf.iv c0_i32 c1_i32 k1_t1
  let c512_i32 : BitVec 32 := 512#32
  let v9 : BitVec 32 := Scalar.muli arg7 c512_i32
  let v10 : BitVec 32 := v9
  let v13 : Index := Scalar.indexCast v10
  ![0, v13.toNat]
def k1_off2 (k1_t1 : Fin k1_t1_loop.trips) : Fin 2 → Nat :=
  let c0_7 : Index := 0#32
  let c0_i32 : BitVec 32 := 0#32
  let c1_i32 : BitVec 32 := 1#32
  let arg7 : BitVec 32 := Scf.iv c0_i32 c1_i32 k1_t1
  let c256_i32 : BitVec 32 := 256#32
  let v11 : BitVec 32 := Scalar.muli arg7 c256_i32
  let v12 : BitVec 32 := v11
  let v16 : Index := Scalar.indexCast v12
  ![0, v16.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4096_S1x4096 : S4096.ShapeCasts S1x4096
  inb_S128x1_S128x1_0_0 : ∀ a, (![0, 0] : Fin 2 → Nat) a + S128x1.size a ≤ S128x1.size a
  h_S128x1 : 0 < S128x1.numel
  h_S1024x512 : 0 < S1024x512.numel
  shapeCasts_S1024x512_S1024x512 : S1024x512.ShapeCasts S1024x512
  h_S128x256 : 0 < S128x256.numel
  shapeCasts_S128x256_S128x256x1 : S128x256.ShapeCasts S128x256x1
  concatenates_S128x256x1_S128x256x1_S128x256x2_d2 : Shape.Concatenates [S128x256x1, S128x256x1] S128x256x2 2
  shapeCasts_S128x256x2_S128x512 : S128x256x2.ShapeCasts S128x512
  broadcasts_S128x1_S128x512 : S128x1.Broadcasts S128x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  dot_S1024x512_S128x512_S1024x128_1_1_0_0_n_n_wf : DotDims.WF S1024x512 S128x512 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .bf16 = 32 ∨ (Rect.block (s := S16384x4096) S256x4096.size (cc0_transform_1 i) (hinb0_1 i)).WholeWords (EltTy.packing .bf16)
  hrank1 : 0 < grid1.rank
  k1_t1_ok : k1_t1_loop.OK
  k1_mult1_dvd : ∀ k1_t1 : Fin k1_t1_loop.trips, 128 ∣ (k1_mult1 k1_t1).toNat
  k1_mult2_dvd : ∀ k1_t1 : Fin k1_t1_loop.trips, 128 ∣ (k1_mult2 k1_t1).toNat
  k1_off1_inb : ∀ k1_t1 : Fin k1_t1_loop.trips, ∀ a, (k1_off1 k1_t1) a + S1024x512.size a ≤ S1024x4096.size a
  k1_off2_inb : ∀ k1_t1 : Fin k1_t1_loop.trips, ∀ a, (k1_off2 k1_t1) a + S128x256.size a ≤ S128x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S16384x4096.size a
  hwx1_0 : ∀ i : grid1.Coords, EltTy.bits .bf16 = 32 ∨ (Rect.block (s := S16384x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S4096x2048.size a
  hwx1_1 : ∀ i : grid1.Coords, EltTy.bits .i32 = 32 ∨ (Rect.block (s := S4096x2048) S128x2048.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S4096x1.size a
  hwx1_2 : ∀ i : grid1.Coords, EltTy.bits .f32 = 32 ∨ (Rect.block (s := S4096x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x4096.size a
  hwx1_3 : ∀ i : grid1.Coords, EltTy.bits .f32 = 32 ∨ (Rect.block (s := S1x4096) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S16384x4096.size a
  hwx1_4 : ∀ i : grid1.Coords, EltTy.bits .f32 = 32 ∨ (Rect.block (s := S16384x4096) S1024x128.size (cc1_transform_4 i) (hinb1_4 i)).WholeWords (EltTy.packing .f32)

variable [Facts₀]

def dot_S1024x512_S128x512_S1024x128_1_1_0_0_n_n : DotDims S1024x512 S128x512 S1024x128 where
  lhsContracting := [1]
  rhsContracting := [1]
  lhsNonContracting := [0]
  rhsNonContracting := [0]
  lhsBatch := []
  rhsBatch := []
  wf := dot_S1024x512_S128x512_S1024x128_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384x4096 : Shape := ⟨2, ![16384, 4096]⟩
abbrev S4096x2048 : Shape := ⟨2, ![4096, 2048]⟩
abbrev S4096x1 : Shape := ⟨2, ![4096, 1]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S16384 : Shape := ⟨1, ![16384]⟩
abbrev S16384x1 : Shape := ⟨2, ![16384, 1]⟩
abbrev S1x4096 : Shape := ⟨2, ![1, 4096]⟩

abbrev nBuf : Space → Nat
  | .hbm => 55
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x2048, .i32⟩
  | .hbm, ⟨2, _⟩ => ⟨S4096x1, .f32⟩
  | .hbm, ⟨3, _⟩ => ⟨S4096, .f32⟩
  | .hbm, ⟨4, _⟩ => ⟨S_, .i32⟩
  | .hbm, ⟨5, _⟩ => ⟨S4096x2048, .i32⟩
  | .hbm, ⟨6, _⟩ => ⟨S4096x2048, .i32⟩
  | .hbm, ⟨7, _⟩ => ⟨S_, .i32⟩
  | .hbm, ⟨8, _⟩ => ⟨S4096x2048, .i32⟩
  | .hbm, ⟨9, _⟩ => ⟨S4096x2048, .i32⟩
  | .hbm, ⟨10, _⟩ => ⟨S_, .i32⟩
  | .hbm, ⟨11, _⟩ => ⟨S4096x2048, .i32⟩
  | .hbm, ⟨12, _⟩ => ⟨S4096x2048, .i32⟩
  | .hbm, ⟨13, _⟩ => ⟨S_, .i32⟩
  | .hbm, ⟨14, _⟩ => ⟨S4096x2048, .i32⟩
  | .hbm, ⟨15, _⟩ => ⟨S4096x2048, .i32⟩
  | .hbm, ⟨16, _⟩ => ⟨S4096x2048x1, .i32⟩
  | .hbm, ⟨17, _⟩ => ⟨S4096x2048x1, .i32⟩
  | .hbm, ⟨18, _⟩ => ⟨S4096x2048x2, .i32⟩
  | .hbm, ⟨19, _⟩ => ⟨S4096x4096, .i32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S16384x4096, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .i1⟩
  | .hbm, ⟨33, _⟩ => ⟨S_, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x4096, .f32⟩
  | .hbm, ⟨38, _⟩ => ⟨S16384x4096, .f32⟩
  | .hbm, ⟨39, _⟩ => ⟨S16384x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S16384x4096, .f32⟩
  | .hbm, ⟨44, _⟩ => ⟨S16384x4096, .f32⟩
  | .hbm, ⟨45, _⟩ => ⟨S_, .f32⟩
  | .hbm, ⟨46, _⟩ => ⟨S16384x4096, .f32⟩
  | .hbm, ⟨47, _⟩ => ⟨S16384x4096, .f32⟩
  | .hbm, ⟨48, _⟩ => ⟨S16384x4096, .f32⟩
  | .hbm, ⟨49, _⟩ => ⟨S16384x4096, .f32⟩
  | .hbm, ⟨50, _⟩ => ⟨S4096x4096, .f32⟩
  | .hbm, ⟨51, _⟩ => ⟨S16384x4096, .f32⟩
  | .hbm, ⟨52, _⟩ => ⟨S1x4096, .f32⟩
  | .hbm, ⟨53, _⟩ => ⟨S16384x4096, .f32⟩
  | .hbm, ⟨54, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_call0_v0 : Ref sig .tc := ⟨.hbm, 34, rfl⟩
abbrev main_call0_v1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_cst_7 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S4096x1_S4096x4096_0_1 : S4096x1.BroadcastsInDim S4096x4096 (![0, 1] : Fin 2 → Fin S4096x4096.rank)
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  bcast_S_S16384x4096 : S_.BroadcastsInDim S16384x4096 (![] : Fin 0 → Fin S16384x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x4096_S16384x4096_1_0_0_1_n_n_wf : DotDims.WF S16384x4096 S4096x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.Blocks.lean ====
/-
  Names, at their literal types, for the arrays each pallas_call reads as it is entered and for the block each of its
  windows holds at a grid point. Region 0 (the activation quantizer) reads `x` in 64 row blocks of 256 rows;
  region 1 (the matmul) reads the quantized activations in 16 row blocks of 1024 rows and the packed weights, their
  scales and the bias row in 32 blocks of 128 output channels.
-/
import proofs.«410674_j38019050504445_3_alg».proof.Proof.Gen.KernelIdeal.Frame

noncomputable section

namespace Cert.KernelIdeal.Val

open Cert.KernelIdeal Cert.KernelIdeal.Gen
open Idealize.ShloMosaic Idealize.ShloMosaic.TcCoe Idealize.SL.Sem

variable {F : FTy → Type} [FloatOps F]
variable (V : (c : Dev nD) → (b : Ref sig .tc) → Buf (Elt F) ((c : Thread nD τ).loc b))

/-- The activations as region 0 finds them. -/
abbrev xArr (c : Dev nD) : Vec F S16384x4096 .f32 := V c main_arg0
/-- Their row block at point `t` of region 0: rows `256 t … 256 t + 255`. -/
abbrev xBlk (c : Dev nD) (t : Fin cfg0.N) : Vec F S256x4096 .f32 := iblk0 V c 0 t

/-- The quantized activations, the packed weights, the scales and the bias row as region 1 finds them. -/
abbrev aArr (c : Dev nD) : Vec F S16384x4096 .bf16 := V c main_v0
abbrev qArr (c : Dev nD) : Vec F S4096x2048 .i32 := V c main_arg1
abbrev sArr (c : Dev nD) : Vec F S4096x1 .f32 := V c main_arg2
abbrev bArr (c : Dev nD) : Vec F S1x4096 .f32 := V c main_v1
/-- Their blocks at point `t` of region 1. -/
abbrev aBlk (c : Dev nD) (t : Fin cfg1.N) : Vec F S1024x4096 .bf16 := iblk1 V c 0 t
abbrev qBlk (c : Dev nD) (t : Fin cfg1.N) : Vec F S128x2048 .i32 := iblk1 V c 1 t
abbrev sBlk (c : Dev nD) (t : Fin cfg1.N) : Vec F S128x1 .f32 := iblk1 V c 2 t
abbrev bBlk (c : Dev nD) (t : Fin cfg1.N) : Vec F S1x128 .f32 := iblk1 V c 3 t

end Cert.KernelIdeal.Val

end
-- ==== Proof.Spec.lean ====
/-
  The specification both programs are read against, over the extended reals, index by index.

  Activations: row `R` of `x` is quantized against its own scale. With `M = max_k |x[R,k]|` (the fold of `max`
  from `-∞` over the row) the scale is `a = M / 127`, replaced by `1` where `a = 0`, and entry `k` becomes
  `min(127, max(-128, roundeven(x[R,k] / a))) · a` (`qrow`: a function of ONE row and a position in it).

  Weights: word `q[n, j']` packs two signed nibbles; entry `j` of the unpacked row `n` is the high nibble
  `(q[n, j/2] >> 4) - 8` for even `j` and the low one `(q[n, j/2] & 15) - 8` for odd `j` (`nib`), read as a number
  and multiplied by the row's scale `s[n, 0]` (`wdqAt`).

  The layer: `out[R, n] = (∑_j xq[R, j] · w[n, j]) + b[0, n]` (`linAt`), with `b` the bias laid out as one row.
  `linAt` reads only row `R` of its first argument, row `n` of the weights and scales and column `n` of the bias
  (`linAt_congr`), which is what lets a block of the result be computed from blocks of the operands.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The largest magnitude in a row: the fold of `max` from `-∞` over the entries' absolute values. -/
def rowMax (row : Fin 4096 → EReal) : EReal :=
  (Finset.univ : Finset (Fin 4096)).fold max (FloatOps.ofBits (F := Ideal) .f32 0xFF800000#32)
    (fun k => FloatOps.absf (F := Ideal) (φ := .f32) (row k))

/-- The row's quantization step: `rowMax / 127`, or `1` where that quotient is zero. -/
def rowScale (row : Fin 4096 → EReal) : EReal :=
  Scalar.select
    (FloatOps.cmpf (F := Ideal) (φ := .f32) .oeq
      (FloatOps.divf (F := Ideal) (φ := .f32) (rowMax row) (FloatOps.ofBits (F := Ideal) .f32 0x42FE0000#32))
      (FloatOps.ofBits (F := Ideal) .f32 0x00000000#32))
    (FloatOps.ofBits (F := Ideal) .f32 0x3F800000#32)
    (FloatOps.divf (F := Ideal) (φ := .f32) (rowMax row) (FloatOps.ofBits (F := Ideal) .f32 0x42FE0000#32))

/-- Entry `k` of the row after quantize-dequantize: rounded to the nearest multiple of the step, ties to even,
    clipped to `[-128, 127]` steps. -/
def qrow (row : Fin 4096 → EReal) (k : Fin 4096) : EReal :=
  FloatOps.mulf (F := Ideal) (φ := .f32)
    (FloatOps.minimumf (F := Ideal) (φ := .f32) (FloatOps.ofBits (F := Ideal) .f32 0x42FE0000#32)
      (FloatOps.maximumf (F := Ideal) (φ := .f32) (FloatOps.ofBits (F := Ideal) .f32 0xC3000000#32)
        (FloatOps.roundeven (F := Ideal) (φ := .f32)
          (FloatOps.divf (F := Ideal) (φ := .f32) (row k) (rowScale row)))))
    (rowScale row)

/-- The whole activation array, quantized row by row. -/
def quant (x : (⟨2, ![16384, 4096]⟩ : Shape).Idx → EReal) : (⟨2, ![16384, 4096]⟩ : Shape).Idx → EReal :=
  fun i => qrow (fun k => x (ix2 (i 0) k)) (i 1)

/-- Half of an index below 4096 is below 2048. -/
theorem half_lt (j : Fin 4096) : j.val / 2 < 2048 := by have := j.isLt; omega

/-- Entry `j` of unpacked row `n`: the high nibble of word `j / 2` for even `j`, the low one for odd `j`, each
    shifted from `[0, 15]` to `[-8, 7]`. -/
def nib {N : Nat} (q : (⟨2, ![N, 2048]⟩ : Shape).Idx → BitVec 32) (n : Fin N) (j : Fin 4096) : BitVec 32 :=
  if j.val % 2 = 0 then IntOp.subi (IntOp.shrsi .vector (q (ix2 n ⟨j.val / 2, half_lt j⟩)) 4#32) 8#32
  else IntOp.subi (IntOp.andi (q (ix2 n ⟨j.val / 2, half_lt j⟩)) 15#32) 8#32

/-- The dequantized weight `w[n, j]`: the nibble as a number times the row's scale. -/
def wdqAt {N : Nat} (q : (⟨2, ![N, 2048]⟩ : Shape).Idx → BitVec 32) (s : (⟨2, ![N, 1]⟩ : Shape).Idx → EReal)
    (n : Fin N) (j : Fin 4096) : EReal :=
  FloatOps.mulf (F := Ideal) (φ := .f32) (FloatOps.sitofp (F := Ideal) .f32 (nib q n j)) (s (ix2 n 0))

/-- One entry of the layer: row `R` of the activations against row `n` of the weights, plus the bias at `n`. -/
def linAt {M N : Nat} (a : (⟨2, ![M, 4096]⟩ : Shape).Idx → EReal) (q : (⟨2, ![N, 2048]⟩ : Shape).Idx → BitVec 32)
    (s : (⟨2, ![N, 1]⟩ : Shape).Idx → EReal) (b : (⟨2, ![1, N]⟩ : Shape).Idx → EReal) (R : Fin M) (n : Fin N) : EReal :=
  (∑ j : Fin 4096, a (ix2 R j) * wdqAt q s n j) + b (ix2 0 n)

/-- The layer over whole arrays. -/
def lin (a : (⟨2, ![16384, 4096]⟩ : Shape).Idx → EReal) (q : (⟨2, ![4096, 2048]⟩ : Shape).Idx → BitVec 32)
    (s : (⟨2, ![4096, 1]⟩ : Shape).Idx → EReal) (b : (⟨2, ![1, 4096]⟩ : Shape).Idx → EReal) :
    (⟨2, ![16384, 4096]⟩ : Shape).Idx → EReal :=
  fun i => linAt a q s b (i 0) (i 1)

/-- The bias vector laid out as one row. -/
def biasRow (b : (⟨1, ![4096]⟩ : Shape).Idx → EReal) : (⟨2, ![1, 4096]⟩ : Shape).Idx → EReal :=
  fun i => b (ix1 (i 1))

/-- The function both programs compute. -/
def out (x : (⟨2, ![16384, 4096]⟩ : Shape).Idx → EReal) (q : (⟨2, ![4096, 2048]⟩ : Shape).Idx → BitVec 32)
    (s : (⟨2, ![4096, 1]⟩ : Shape).Idx → EReal) (b : (⟨1, ![4096]⟩ : Shape).Idx → EReal) :
    (⟨2, ![16384, 4096]⟩ : Shape).Idx → EReal :=
  lin (quant x) q s (biasRow b)

/-- A nibble of row `n` depends on that row of the packed words only. -/
theorem nib_congr {N N' : Nat} (q : (⟨2, ![N, 2048]⟩ : Shape).Idx → BitVec 32)
    (q' : (⟨2, ![N', 2048]⟩ : Shape).Idx → BitVec 32) (n : Fin N) (n' : Fin N')
    (hq : ∀ j' : Fin 2048, q (ix2 n j') = q' (ix2 n' j')) (j : Fin 4096) : nib q n j = nib q' n' j := by
  unfold nib; rw [hq]

/-- An entry of the layer depends on one row of the activations, one row of the weights and scales, and one bias
    entry: equal rows and entries give equal results, whatever arrays they sit in. -/
theorem linAt_congr {M N M' N' : Nat}
    (a : (⟨2, ![M, 4096]⟩ : Shape).Idx → EReal) (q : (⟨2, ![N, 2048]⟩ : Shape).Idx → BitVec 32)
    (s : (⟨2, ![N, 1]⟩ : Shape).Idx → EReal) (b : (⟨2, ![1, N]⟩ : Shape).Idx → EReal)
    (a' : (⟨2, ![M', 4096]⟩ : Shape).Idx → EReal) (q' : (⟨2, ![N', 2048]⟩ : Shape).Idx → BitVec 32)
    (s' : (⟨2, ![N', 1]⟩ : Shape).Idx → EReal) (b' : (⟨2, ![1, N']⟩ : Shape).Idx → EReal)
    (R : Fin M) (n : Fin N) (R' : Fin M') (n' : Fin N')
    (ha : ∀ j : Fin 4096, a (ix2 R j) = a' (ix2 R' j)) (hq : ∀ j' : Fin 2048, q (ix2 n j') = q' (ix2 n' j'))
    (hs : s (ix2 n 0) = s' (ix2 n' 0)) (hb : b (ix2 0 n) = b' (ix2 0 n')) :
    linAt a q s b R n = linAt a' q' s' b' R' n' := by
  unfold linAt wdqAt
  rw [hb, hs]
  congr 1
  exact Finset.sum_congr rfl fun j _ => by rw [ha j, nib_congr q q' n n' hq j]

end Cert.Spec

end
-- ==== Proof.QuantPay.lean ====
/-
  The activation quantizer's payload read at an entry: what the kernel stores at row `r`, column `k` of its output
  block is the specification's quantize-dequantize of row `r` of the input block, at position `k`.
-/
import proofs.«410674_j38019050504445_3_alg».proof.Proof.Gen.KernelIdeal.Skeleton
import proofs.«410674_j38019050504445_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Val

open Cert.KernelIdeal Cert.KernelIdeal.Gen
open Idealize.ShloMosaic Idealize.ShloMosaic.ValueIdx

/-- The index the row reduction inserts at row `r`, position `k'`, is `(r, k')`. -/
theorem lift_row (r : Fin 256) (k' : Fin 4096) :
    reduces_S256x4096_S256.lift (ix1 r) k' = ix2 r k' := by
  funext a
  apply Fin.ext
  match a with
  | ⟨0, _⟩ => rfl
  | ⟨1, _⟩ => rfl

/-- The reduction of the absolute values along row `r` is that row's largest magnitude. -/
theorem rowMax_apply (v0 : Vec Ideal S256x4096 .f32) (r : Fin 256) :
    multiReduction (F := Ideal) .maximumf [1] S256 (absf v0) 0xFF800000#32 reduces_S256x4096_S256 (.inl rfl) rfl (ix1 r)
      = Cert.Spec.rowMax (fun k' => v0 (ix2 r k')) := by
  refine (Ideal.multiReduction_maximumf_single _ _ _ _ _ _).trans ?_
  unfold Cert.Spec.rowMax
  exact Finset.fold_congr (fun k' _ =>
    congrArg (fun i => FloatOps.absf (F := Ideal) (φ := .f32) (v0 i)) (lift_row r k'))

/-- A vector of 256 entries laid out as a `[256, 1]` column reads, at `(r, 0)`, entry `r`. -/
theorem column_apply {α : Type} (v : S256.Idx → α) (r : Fin 256) :
    shapeCast S256x1 v shapeCasts_S256_S256x1 (ix2 r 0) = v (ix1 r) :=
  shapeCast_apply v _ (ix2 r 0) (ix1 r) (by
    rw [Shape.rowMajor_val_one, Shape.rowMajor_val_two]
    show r.val = r.val * 1 + 0
    omega)

/-- A `[256, 1]` column spread along the rows reads, at `(r, k)`, the column at `(r, 0)`. -/
theorem spread_apply {α : Type} (v : S256x1.Idx → α) (r : Fin 256) (k : Fin 4096) :
    broadcastTo S256x4096 v broadcasts_S256x1_S256x4096 (ix2 r k) = v (ix2 r 0) :=
  broadcastTo_apply v _ (ix2 r k) (ix2 r 0) (fun a => match a with
    | ⟨0, _⟩ => by show r.val = if (256 : Nat) = 1 then 0 else r.val; rw [if_neg (by decide)]
    | ⟨1, _⟩ => by show 0 = if (1 : Nat) = 1 then 0 else k.val; rw [if_pos rfl])

/-- The column of row steps the kernel forms: each row's largest magnitude over 127, or 1 where that is zero. -/
def stepCol (v0 : Vec Ideal S256x4096 .f32) : FVec Ideal S256x1 .f32 :=
  select
    (cmpf .oeq
      (divf
        (shapeCast S256x1
          (multiReduction (F := Ideal) .maximumf [1] S256 (absf v0) 0xFF800000#32 reduces_S256x4096_S256 (.inl rfl) rfl)
          shapeCasts_S256_S256x1)
        (broadcast S256x1 (FloatOps.ofBits (F := Ideal) .f32 0x42FE0000#32)))
      (broadcast S256x1 (FloatOps.ofBits (F := Ideal) .f32 0x00000000#32)))
    (broadcast S256x1 (FloatOps.ofBits (F := Ideal) .f32 0x3F800000#32))
    (divf
      (shapeCast S256x1
        (multiReduction (F := Ideal) .maximumf [1] S256 (absf v0) 0xFF800000#32 reduces_S256x4096_S256 (.inl rfl) rfl)
        shapeCasts_S256_S256x1)
      (broadcast S256x1 (FloatOps.ofBits (F := Ideal) .f32 0x42FE0000#32)))

/-- The step column at `(r, 0)` is the specification's scale of row `r`. -/
theorem stepCol_apply (v0 : Vec Ideal S256x4096 .f32) (r : Fin 256) :
    stepCol v0 (ix2 r 0) = Cert.Spec.rowScale (fun k' => v0 (ix2 r k')) := by
  have hmax : shapeCast S256x1
        (multiReduction (F := Ideal) .maximumf [1] S256 (absf v0) 0xFF800000#32 reduces_S256x4096_S256 (.inl rfl) rfl)
        shapeCasts_S256_S256x1 (ix2 r 0) = Cert.Spec.rowMax (fun k' => v0 (ix2 r k')) :=
    (column_apply _ r).trans (rowMax_apply v0 r)
  unfold Cert.Spec.rowScale
  rw [← hmax]
  rfl

theorem pay1_apply (v0 : Vec Ideal S256x4096 .f32) (r : Fin 256) (k : Fin 4096) :
    k0_pay1 (F := Ideal) v0 (ix2 r k) = Cert.Spec.qrow (fun k' => v0 (ix2 r k')) k := by
  have hstep : broadcastTo S256x4096 (stepCol v0) broadcasts_S256x1_S256x4096 (ix2 r k)
      = Cert.Spec.rowScale (fun k' => v0 (ix2 r k')) :=
    (spread_apply _ r k).trans (stepCol_apply v0 r)
  unfold Cert.Spec.qrow
  rw [← hstep]
  rfl

end Cert.KernelIdeal.Val

end
-- ==== Proof.QuantArr.lean ====
/-
  Region 0's output array after its 64 grid points: point `t` writes rows `256 t … 256 t + 255`, each the
  quantize-dequantize of the same row of `x`; the 64 row blocks tile the array, so the array ends at `quant x`.
-/
import proofs.«410674_j38019050504445_3_alg».proof.Proof.Blocks
import proofs.«410674_j38019050504445_3_alg».proof.Proof.QuantPay
import proofs.«410674_j38019050504445_3_alg».proof.Proof.Spec
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offset of a store that fills its whole block, as the constant function. -/
theorem zero_off : (![0, 0] : Fin 2 → Nat) = fun _ => 0 := funext fun a => by fin_cases a <;> rfl

/-- At each of the 64 grid points both windows sit at row block `t` and at the only column block. -/
theorem rowblk_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r` of the block of `x` at point `t` is row `256 t + r` of `x`. -/
theorem xBlk_apply (c : Dev nD) (t : Fin cfg0.N) (r : Fin 256) (k : Fin 4096)
    (h : 256 * t.val + r.val < 16384) :
    xBlk V c t (ix2 r k) = xArr V c (ix2 ⟨256 * t.val + r.val, h⟩ k) := by
  show iblk0 V c 0 t (ix2 r k) = V c main_arg0 (ix2 ⟨256 * t.val + r.val, h⟩ k)
  unfold iblk0
  rw [View.read_apply]
  show V c main_arg0 (((cfg0.win 0).blk t).view.emb (ix2 r k)) = V c main_arg0 (ix2 ⟨256 * t.val + r.val, h⟩ k)
  refine congrArg (V c main_arg0) ?_
  obtain ⟨e0, e1, -, -⟩ := rowblk_index t
  funext a; apply Fin.ext
  match a with
  | ⟨0, _⟩ => show win0_0.index t (0 : Fin 2) * 256 + 1 * r.val = 256 * t.val + r.val; omega
  | ⟨1, _⟩ => show win0_0.index t (1 : Fin 2) * 4096 + 1 * k.val = k.val; omega

/-- Entry `(r, k)` of the output block at point `t` sits at `(256 t + r, k)` of the output array. -/
theorem oBlk_emb (t : Fin cfg0.N) (r : Fin 256) (k : Fin 4096) (h : 256 * t.val + r.val < 16384) :
    (((cfg0.win 1).blk t).view.emb (ix2 r k) : S16384x4096.Idx) = ix2 ⟨256 * t.val + r.val, h⟩ k := by
  obtain ⟨-, -, e2, e3⟩ := rowblk_index t
  funext a; apply Fin.ext
  match a with
  | ⟨0, _⟩ => show win0_1.index t (0 : Fin 2) * 256 + 1 * r.val = 256 * t.val + r.val; omega
  | ⟨1, _⟩ => show win0_1.index t (1 : Fin 2) * 4096 + 1 * k.val = k.val; omega

/-- What point `t` writes back is block `t` of `quant x`: each of its rows is quantized against its own scale, and
    that row is row `256 t + r` of `x`. -/
theorem flushed_eq (c : Dev nD) (t : Fin cfg0.N) :
    (dat0 (F := Ideal) V c).flushed 1 t
      = ((cfg0.win 1).blk t).view.read (Elt Ideal) (Cert.Spec.quant (xArr V c)) := by
  show (cfg0.win 1).cut (grid0.coords t) ((dat0 V c).after 1 t) = _
  rw [after0_1]
  unfold out0_1
  rw [View.canon_unit_zero zero_off]
  simp only [View.ld_unit_zero (S := S256x4096) zero_off]
  funext y
  obtain ⟨r, k, rfl⟩ : ∃ (r : Fin 256) (k : Fin 4096), y = ix2 r k := ⟨y 0, y 1, eq_ix2 y⟩
  have ht : t.val < 64 := t.isLt
  have h : 256 * t.val + r.val < 16384 := by have := r.isLt; omega
  show k0_pay1 (F := Ideal) (xBlk V c t) (ix2 r k)
    = Cert.Spec.quant (xArr V c) (((cfg0.win 1).blk t).view.emb (ix2 r k))
  refine (pay1_apply (xBlk V c t) r k).trans ?_
  refine Eq.trans ?_ (congrArg (Cert.Spec.quant (xArr V c)) (oBlk_emb t r k h)).symm
  show Cert.Spec.qrow (fun k' => xBlk V c t (ix2 r k')) k
    = Cert.Spec.qrow (fun k' => xArr V c (ix2 ⟨256 * t.val + r.val, h⟩ k')) k
  refine congrArg (fun row => Cert.Spec.qrow row k) ?_
  funext k'
  exact xBlk_apply V c t r k' h

/-- An index of the output array is in point `t`'s block iff each coordinate is in the block's range on its axis. -/
theorem mem_oBlk (t : Fin cfg0.N) (i : S16384x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v0).slice (win0_1.rect t)).set ↔ _
  rw [View.set_slice_whole, Rect.mem_set_unit]
  exact Iff.rfl

/-- The 64 row blocks tile the array: row `R` lies in the block of point `R / 256`. -/
theorem rows_covered (i : S16384x4096.Idx) :
    ∃ t : Fin cfg0.N, (cfg0.win 1).flush t = true ∧ i ∈ ((cfg0.win 1).blk t).view.set := by
  have hi0 : (i 0).val < 16384 := (i 0).isLt
  have hi1 : (i 1).val < 4096 := (i 1).isLt
  have hT : (i 0).val / 256 < 64 := by omega
  refine ⟨⟨(i 0).val / 256, hT⟩, flush0_1 _, ?_⟩
  rw [mem_oBlk]
  obtain ⟨-, -, e2, e3⟩ := rowblk_index ⟨(i 0).val / 256, hT⟩
  have e2' : win0_1.index (⟨(i 0).val / 256, hT⟩ : Fin cfg0.N) (0 : Fin 2) = (i 0).val / 256 := e2
  intro a
  match a with
  | ⟨0, _⟩ =>
    show win0_1.index (⟨(i 0).val / 256, hT⟩ : Fin cfg0.N) (0 : Fin 2) * 256 ≤ (i 0).val
      ∧ (i 0).val < win0_1.index (⟨(i 0).val / 256, hT⟩ : Fin cfg0.N) (0 : Fin 2) * 256 + 256
    omega
  | ⟨1, _⟩ =>
    show win0_1.index (⟨(i 0).val / 256, hT⟩ : Fin cfg0.N) (1 : Fin 2) * 4096 ≤ (i 1).val
      ∧ (i 1).val < win0_1.index (⟨(i 0).val / 256, hT⟩ : Fin cfg0.N) (1 : Fin 2) * 4096 + 4096
    omega

theorem quant_arr (c : Dev nD) : (dat0 (F := Ideal) V c).arrAt 1 cfg0.N = Cert.Spec.quant (xArr V c) :=
  (dat0 (F := Ideal) V c).arrAt_eq_of_cover 1 (Cert.Spec.quant (xArr V c)) (fun t _ => flushed_eq V c t) rows_covered

end Cert.KernelIdeal.Val

end
-- ==== Proof.LinDefs.lean ====
/-
  What one grid point of the matmul kernel computes, as a function of the four blocks it reads: the accumulator starts
  at zero; trip `k` of the loop over the contraction axis adds the product of columns `512 k … 512 k + 511` of the
  activation block with the weights unpacked from columns `256 k … 256 k + 255` of the packed block; the bias row is
  added at the end.
-/
import proofs.«410674_j38019050504445_3_alg».proof.Proof.Gen.KernelIdeal.Skeleton
import Idealize.ShloMosaic.Lib.Pipeline.FrameBody
import Idealize.ShloMosaic.Lib.ValueIdx

noncomputable section

namespace Cert.KernelIdeal.Val

open Cert.KernelIdeal Cert.KernelIdeal.Gen
open Idealize.ShloMosaic Idealize.ShloMosaic.ValueIdx

variable {F : FTy → Type} [FloatOps F]

/-- Trip `k`'s slice of the activation block: all 1024 rows, columns `512 k … 512 k + 511`. -/
def chunkX (x0 : Vec F S1024x4096 .bf16) (k : Fin k1_t1_loop.trips) : Vec F S1024x512 .bf16 :=
  View.ld x0 (Rect.unit (s := S1024x4096) (k1_off1 k) S1024x512.size (k1_off1_inb k))

/-- Trip `k`'s slice of the packed weights: all 128 rows, words `256 k … 256 k + 255`. -/
def chunkQ (x1 : Vec F S128x2048 .i32) (k : Fin k1_t1_loop.trips) : Vec F S128x256 .i32 :=
  View.ld x1 (Rect.unit (s := S128x2048) (k1_off2 k) S128x256.size (k1_off2_inb k))

/-- The accumulator before trip `n`. -/
def accum (x0 : Vec F S1024x4096 .bf16) (x1 : Vec F S128x2048 .i32) (x2 : Vec F S128x1 .f32) : ℕ → FVec F S1024x128 .f32
  | 0 => k1_pay1
  | n + 1 => if h : n < k1_t1_loop.trips then k1_pay2 x2 (accum x0 x1 x2 n) (chunkX x0 ⟨n, h⟩) (chunkQ x1 ⟨n, h⟩)
      else accum x0 x1 x2 n

/-- The output block: the accumulator after the last trip, plus the bias row. -/
def bodyVal (x0 : Vec F S1024x4096 .bf16) (x1 : Vec F S128x2048 .i32) (x2 : Vec F S128x1 .f32) (x3 : Vec F S1x128 .f32) :
    FVec F S1024x128 .f32 :=
  k1_pay3 (accum x0 x1 x2 k1_t1_loop.trips) x3

/-- Half of an index below 512 is below 256. -/
theorem half_lt_256 (j : Fin 512) : j.val / 2 < 256 := by have := j.isLt; omega

/-- Entry `j` of row `n` of one trip's unpacked weights: the high nibble of word `j / 2` for even `j`, the low one
    for odd `j`, each shifted from `[0, 15]` to `[-8, 7]`. -/
def chunkNib (qk : (⟨2, ![128, 256]⟩ : Shape).Idx → BitVec 32) (n : Fin 128) (j : Fin 512) : BitVec 32 :=
  if j.val % 2 = 0 then IntOp.subi (IntOp.shrsi .vector (qk (ix2 n ⟨j.val / 2, half_lt_256 j⟩)) 4#32) 8#32
  else IntOp.subi (IntOp.andi (qk (ix2 n ⟨j.val / 2, half_lt_256 j⟩)) 15#32) 8#32

/-- The same entry dequantized: the nibble as a number times the row's scale. -/
def chunkW (qk : (⟨2, ![128, 256]⟩ : Shape).Idx → BitVec 32) (x2 : (⟨2, ![128, 1]⟩ : Shape).Idx → EReal) (n : Fin 128)
    (j : Fin 512) : EReal :=
  FloatOps.mulf (F := Ideal) (φ := .f32) (FloatOps.sitofp (F := Ideal) .f32 (chunkNib qk n j)) (x2 (ix2 n 0))

end Cert.KernelIdeal.Val

end
-- ==== Proof.LinBody.lean ====
/-
  What the matmul kernel's body leaves in its output block at a grid point, read off the run: the one covering store's
  payload, whose accumulator is the loop's carried value after all trips — trip `k` adding the product of its two
  loaded slices to the value before it.
-/
import proofs.«410674_j38019050504445_3_alg».proof.Proof.Blocks
import proofs.«410674_j38019050504445_3_alg».proof.Proof.LinDefs
import Idealize.ShloMosaic.Lib.Pipeline.Value
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.SL.Sem Idealize.ShloMosaic.Tactic

variable {F : FTy → Type} [FloatOps F]
variable (V : (c : Dev nD) → (b : Ref sig .tc) → Buf (Elt F) ((c : Thread nD τ).loc b))

/-- The offset `(0, 0)` is the zero offset. -/
theorem origin_zero : (![0, 0] : Fin 2 → Nat) = fun _ => 0 := funext fun a => by fin_cases a <;> rfl

/-- One trip of the loop over the contraction axis: on buffers holding the activation block `x0` and the packed block
    `x1`, trip `k` turns the carried value `acc` into `acc` plus the product of the trip's two slices. -/
theorem trip_value (𝒱 : Variants) (c : Dev nD) (bd : Option 𝒱.V) (i : grid1.Coords) (arg2 : Memref sig .tc .vmem S1024x4096 .bf16) (harg2 : arg2.IsWhole) (arg3 : Memref sig .tc .vmem S128x2048 .i32) (harg3 : arg3.IsWhole) (arg4 : Memref sig .tc .vmem S128x1 .f32) (harg4 : arg4.IsWhole) (arg5 : Memref sig .tc .vmem S1x128 .f32) (harg5 : arg5.IsWhole) (arg6 : Memref sig .tc .vmem S1024x128 .f32) (harg6 : arg6.IsWhole)
    (v0 : Vec F S128x1 .f32) (x0 : Vec F S1024x4096 .bf16) (x1 : Vec F S128x2048 .i32) (k : Fin k1_t1_loop.trips)
    (acc : FVec F S1024x128 .f32) :
    tripR_k1_t1 (F := F) 𝒱 c bd i arg2 harg2 arg3 harg3 arg4 harg4 arg5 harg5 arg6 harg6 v0 (harg2.unread x0) (harg3.unread x1) k acc
      = k1_pay2 v0 acc (chunkX x0 k) (chunkQ x1 k) := by
  unfold tripR_k1_t1 trip_k1_t1
  dsimp only
  simp only [View.readAt_eq_ld, harg2.read_unread, harg3.read_unread]
  rfl

/-- The loop's carried value before trip `n` is the accumulator before trip `n`: both start at the zero block and
    both take the same step at each trip. -/
theorem st_eq_accum (c : Dev nD) (i : grid1.Coords) (arg2 : Memref sig .tc .vmem S1024x4096 .bf16) (harg2 : arg2.IsWhole) (arg3 : Memref sig .tc .vmem S128x2048 .i32) (harg3 : arg3.IsWhole) (arg4 : Memref sig .tc .vmem S128x1 .f32) (harg4 : arg4.IsWhole) (arg5 : Memref sig .tc .vmem S1x128 .f32) (harg5 : arg5.IsWhole) (arg6 : Memref sig .tc .vmem S1024x128 .f32) (harg6 : arg6.IsWhole)
    (x0 : Vec F S1024x4096 .bf16) (x1 : Vec F S128x2048 .i32) (x2 : Vec F S128x1 .f32) :
    ∀ n : ℕ, n ≤ k1_t1_loop.trips →
      st_k1_t1 (F := F) Variants.none c none i arg2 harg2 arg3 harg3 arg4 harg4 arg5 harg5 arg6 harg6 x2 (harg2.unread x0) (harg3.unread x1) k1_pay1 n
        = accum x0 x1 x2 n
  | 0, _ => rfl
  | n + 1, hn => by
    have h : n < k1_t1_loop.trips := hn
    rw [st_k1_t1_succ (F := F) Variants.none c none i arg2 harg2 arg3 harg3 arg4 harg4 arg5 harg5 arg6 harg6 x2 (harg2.unread x0) (harg3.unread x1) k1_pay1 ⟨n, h⟩,
      trip_value Variants.none c none i arg2 harg2 arg3 harg3 arg4 harg4 arg5 harg5 arg6 harg6 x2 x0 x1 ⟨n, h⟩,
      st_eq_accum c i arg2 harg2 arg3 harg3 arg4 harg4 arg5 harg5 arg6 harg6 x0 x1 x2 n (Nat.le_of_lt h)]
    show _ = accum x0 x1 x2 (n + 1)
    rw [accum, dif_pos h]

/-- What the body leaves in the output block on buffers holding the four blocks: its one covering store's payload, the
    accumulator after the last trip plus the bias row. -/
theorem out_value (c : Dev nD) (i : grid1.Coords) (arg2 : Memref sig .tc .vmem S1024x4096 .bf16) (harg2 : arg2.IsWhole) (arg3 : Memref sig .tc .vmem S128x2048 .i32) (harg3 : arg3.IsWhole) (arg4 : Memref sig .tc .vmem S128x1 .f32) (harg4 : arg4.IsWhole) (arg5 : Memref sig .tc .vmem S1x128 .f32) (harg5 : arg5.IsWhole) (arg6 : Memref sig .tc .vmem S1024x128 .f32) (harg6 : arg6.IsWhole)
    (x0 : Vec F S1024x4096 .bf16) (x1 : Vec F S128x2048 .i32) (x2 : Vec F S128x1 .f32) (x3 : Vec F S1x128 .f32) :
    out1_A_4 c i arg2 harg2 arg3 harg3 arg4 harg4 arg5 harg5 arg6 harg6 x0 x1 x2 x3 = bodyVal x0 x1 x2 x3 := by
  unfold out1_A_4
  rw [View.read_writes_eq_canon _ _ _ (cover1_A_4 c i arg2 harg2 arg3 harg3 arg4 harg4 arg5 harg5 arg6 harg6 x0 x1 x2 x3)]
  unfold kernelRun1_A
  dsimp only
  rw [View.canon_unit_zero origin_zero]
  simp only [View.readAt_eq_ld, harg4.read_unread, harg5.read_unread, View.ld_unit_zero (S := S128x1) origin_zero,
    View.ld_unit_zero (S := S1x128) origin_zero]
  unfold bodyVal
  rw [← st_eq_accum c i arg2 harg2 arg3 harg3 arg4 harg4 arg5 harg5 arg6 harg6 x0 x1 x2 k1_t1_loop.trips (Nat.le_refl _)]

theorem outsAt1_eq (c : Dev nD) (t : Fin cfg1.N) :
    outsAt1 V c t = bodyVal (aBlk V c t) (qBlk V c t) (sBlk V c t) (bBlk V c t) := by
  unfold outsAt1
  exact out_value c (grid1.coords t) (ms1_0 t) (hs1_0 t) (ms1_1 t) (hs1_1 t) (ms1_2 t) (hs1_2 t) (ms1_3 t) (hs1_3 t)
    (ms1_4 t) (hs1_4 t) (iblk1 V c 0 t) (iblk1 V c 1 t) (iblk1 V c 2 t) (iblk1 V c 3 t)

end Cert.KernelIdeal.Val

end
-- ==== Proof.LibInterleave.lean ====
/-
  Two arrays of shape [N, K, 1] joined along their last axis and flattened to [N, 2K] interleave: position `j` of row
  `n` holds the first array's entry `j / 2` for even `j` and the second's for odd `j` (row-major order: the joined
  axis is the fastest).
-/
import Idealize.ShloMosaic.Lib.Pipeline.Value
import Idealize.ShloMosaic.Lib.ValueIdx

noncomputable section

namespace Cert.Lib

open Idealize.ShloMosaic Idealize.ShloMosaic.ValueIdx

/-- A cast from `[N, K, 2]` to `[N, K2]` keeps the number of entries, so with a row present `K2 = K * 2`. -/
theorem width_of_casts {N K K2 : Nat} (hs : (⟨3, ![N, K, 2]⟩ : Shape).ShapeCasts (⟨2, ![N, K2]⟩ : Shape)) (hN : 0 < N) :
    K2 = K * 2 := by
  have e : N * K2 = N * (K * 2) := by
    have h : (⟨2, ![N, K2]⟩ : Shape).numel = (⟨3, ![N, K, 2]⟩ : Shape).numel := hs
    unfold Shape.numel at h
    simpa [Fin.prod_univ_succ, Nat.mul_assoc] using h
  exact Nat.eq_of_mul_eq_mul_left hN e

/-- Position `(n, j)` of `[N, K * 2]` and position `(n, j / 2, j % 2)` of `[N, K, 2]` are the same row-major place:
    `(n K + j / 2) · 2 + j % 2 = n (K · 2) + j`. -/
theorem flat_position {N K : Nat} (n : Fin N) (j : Fin (K * 2)) (hj : j.val / 2 < K) :
    ((⟨3, ![N, K, 2]⟩ : Shape).rowMajor (ix3 n ⟨j.val / 2, hj⟩ ⟨j.val % 2, Nat.mod_lt _ (by decide)⟩)).val
      = ((⟨2, ![N, K * 2]⟩ : Shape).rowMajor (ix2 n j)).val := by
  rw [Shape.rowMajor_val_three, Shape.rowMajor_val_two]
  show (n.val * K + j.val / 2) * 2 + j.val % 2 = n.val * (K * 2) + j.val
  rw [← Nat.mul_assoc]
  omega

/-- The flattened join of `hi` and `lo` at `(n, j)`: `hi` at `(n, j / 2, 0)` for even `j`, `lo` there for odd `j`. -/
theorem interleave_apply {α : Type} {N K K2 : Nat} (hi lo : (⟨3, ![N, K, 1]⟩ : Shape).Idx → α)
    (hc : Shape.Concatenates [(⟨3, ![N, K, 1]⟩ : Shape), (⟨3, ![N, K, 1]⟩ : Shape)] (⟨3, ![N, K, 2]⟩ : Shape) 2)
    (hs : (⟨3, ![N, K, 2]⟩ : Shape).ShapeCasts (⟨2, ![N, K2]⟩ : Shape))
    (n : Fin N) (j : Fin K2) (hj : j.val / 2 < K) :
    shapeCast (⟨2, ![N, K2]⟩ : Shape)
        (concatenate (⟨3, ![N, K, 2]⟩ : Shape) 2 [⟨(⟨3, ![N, K, 1]⟩ : Shape), hi⟩, ⟨(⟨3, ![N, K, 1]⟩ : Shape), lo⟩] hc) hs (ix2 n j)
      = if j.val % 2 = 0 then hi (ix3 n ⟨j.val / 2, hj⟩ 0) else lo (ix3 n ⟨j.val / 2, hj⟩ 0) := by
  obtain rfl : K2 = K * 2 := width_of_casts hs n.pos
  -- the cast reads the join at the index with the same row-major place: (n, j / 2, j % 2)
  rw [shapeCast_apply _ hs (ix2 n j) (ix3 n ⟨j.val / 2, hj⟩ ⟨j.val % 2, Nat.mod_lt _ (by decide)⟩) (flat_position n j hj)]
  by_cases h0 : j.val % 2 = 0
  · -- last coordinate 0: inside the first piece
    rw [if_pos h0]
    refine concatenate_pair_apply_left (t := (⟨3, ![N, K, 2]⟩ : Shape)) 2 hi lo hc _ rfl (ix3 n ⟨j.val / 2, hj⟩ 0) fun b => ?_
    match b with
    | ⟨0, _⟩ => rfl
    | ⟨1, _⟩ => rfl
    | ⟨2, _⟩ => exact h0.symm
  · -- last coordinate 1: past the first piece's one entry, so the second piece at 0
    rw [if_neg h0]
    have h1 : j.val % 2 = 1 := by omega
    refine concatenate_pair_apply_right (t := (⟨3, ![N, K, 2]⟩ : Shape)) 2 hi lo hc _ rfl rfl (ix3 n ⟨j.val / 2, hj⟩ 0) (fun b hb => ?_) ?_
    · match b, hb with
      | ⟨0, _⟩, _ => rfl
      | ⟨1, _⟩, _ => rfl
      | ⟨2, _⟩, hb => exact absurd rfl hb
    · exact h1.symm

end Cert.Lib

end
-- ==== Proof.LinPay.lean ====
/-
  The matmul kernel's three payloads read at an entry `(p, n)` of the output block, over the extended reals: the
  accumulator starts at zero; a trip adds the sum over its 512 columns of the activation slice's entry times the
  dequantized weight; the bias row's entry `n` is added last.
-/
import proofs.«410674_j38019050504445_3_alg».proof.Proof.LinDefs
import proofs.«410674_j38019050504445_3_alg».proof.Proof.LibInterleave
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Val

open Cert.KernelIdeal Cert.KernelIdeal.Gen
open Idealize.ShloMosaic Idealize.ShloMosaic.ValueIdx
open scoped BigOperators

/-! ## Two layout reads: a trailing unit axis, a column spread over the row -/

/-- An `[a, b]` array cast to `[a, b, 1]` reads, at `(i, j, u)`, the operand at `(i, j)`: the same row-major place. -/
theorem shapeCast_trailing_unit {α : Type} {a b : Nat} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1]` column broadcast to `[a, b]` reads, at `(i, j)`, the column's entry `i`. -/
theorem broadcastTo_column {α : Type} {a b : Nat} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The weights of one trip -/

/-- The kernel's unpacking read at `(n, j)`: the high nibbles `(q >> 4) - 8` and the low ones `(q & 15) - 8`, each given a
    trailing unit axis, joined along it and flattened, interleave; the entry is `chunkNib`. -/
theorem nibbles_apply (qk : Vec Ideal S128x256 .i32)
    (h1 h2 : S128x256.ShapeCasts S128x256x1) (hc : Shape.Concatenates [S128x256x1, S128x256x1] S128x256x2 2)
    (hs : S128x256x2.ShapeCasts S128x512) (n : Fin 128) (j : Fin 512) :
    shapeCast S128x512
        (concatenate S128x256x2 2
          [⟨S128x256x1, shapeCast S128x256x1 (subi (shrsi qk (broadcast S128x256 4#32)) (broadcast S128x256 8#32)) h1⟩,
           ⟨S128x256x1, shapeCast S128x256x1 (subi (andi qk (broadcast S128x256 15#32)) (broadcast S128x256 8#32)) h2⟩] hc) hs
        (ix2 n j)
      = chunkNib qk n j := by
  refine (Cert.Lib.interleave_apply _ _ hc hs n j (half_lt_256 j)).trans ?_
  rw [shapeCast_trailing_unit, shapeCast_trailing_unit]
  rfl

/-- One trip's weights as the kernel builds them, read at `(n, j)`: the nibble as a number times row `n`'s scale (the
    narrowing to bf16 is the identity over the extended reals). -/
theorem weights_apply (x2 : Vec Ideal S128x1 .f32) (qk : Vec Ideal S128x256 .i32)
    (h1 h2 : S128x256.ShapeCasts S128x256x1) (hc : Shape.Concatenates [S128x256x1, S128x256x1] S128x256x2 2)
    (hs : S128x256x2.ShapeCasts S128x512) (hb : S128x1.Broadcasts S128x512) (hlt : FTy.bits .bf16 < FTy.bits .f32)
    (n : Fin 128) (j : Fin 512) :
    (truncf .bf16
        (mulf
          (sitofp .f32
            (shapeCast S128x512
              (concatenate S128x256x2 2
                [⟨S128x256x1, shapeCast S128x256x1 (subi (shrsi qk (broadcast S128x256 4#32)) (broadcast S128x256 8#32)) h1⟩,
                 ⟨S128x256x1, shapeCast S128x256x1 (subi (andi qk (broadcast S128x256 15#32)) (broadcast S128x256 8#32)) h2⟩] hc) hs))
          (broadcastTo S128x512 x2 hb)) hlt : FVec Ideal S128x512 .bf16) (ix2 n j)
      = chunkW qk x2 n j := by
  rw [truncf_apply, mulf_apply, sitofp_apply, nibbles_apply qk h1 h2 hc hs n j, broadcastTo_column x2 hb n j]
  rfl

/-! ## The product of one trip -/

/-- The left operand's row coordinate at an output entry is the entry's row. -/
theorem lhs_dot_0 (i : S1024x128.Idx) (q : dot_S1024x512_S128x512_S1024x128_1_1_0_0_n_n.contr.Idx) :
    (dot_S1024x512_S128x512_S1024x128_1_1_0_0_n_n.lhsIdx i q 0).val = (i 0).val := by
  unfold DotDims.lhsIdx
  rw [dif_neg (show ¬(0 : Fin S1024x512.rank) ∈ dot_S1024x512_S128x512_S1024x128_1_1_0_0_n_n.lhsBatch by decide), dif_pos (show (0 : Fin S1024x512.rank) ∈ dot_S1024x512_S128x512_S1024x128_1_1_0_0_n_n.lhsNonContracting by decide)]
  rfl
/-- The left operand's column coordinate is the contraction position. -/
theorem lhs_dot_1 (i : S1024x128.Idx) (q : dot_S1024x512_S128x512_S1024x128_1_1_0_0_n_n.contr.Idx) :
    (dot_S1024x512_S128x512_S1024x128_1_1_0_0_n_n.lhsIdx i q 1).val = (q ⟨0, by decide⟩).val :=
  dot_S1024x512_S128x512_S1024x128_1_1_0_0_n_n.lhsIdx_val_of_single rfl i q
/-- The right operand's row coordinate at an output entry is the entry's column. -/
theorem rhs_dot_0 (i : S1024x128.Idx) (q : dot_S1024x512_S128x512_S1024x128_1_1_0_0_n_n.contr.Idx) :
    (dot_S1024x512_S128x512_S1024x128_1_1_0_0_n_n.rhsIdx i q 0).val = (i 1).val := by
  unfold DotDims.rhsIdx
  rw [dif_neg (show ¬(0 : Fin S128x512.rank) ∈ dot_S1024x512_S128x512_S1024x128_1_1_0_0_n_n.rhsBatch by decide), dif_pos (show (0 : Fin S128x512.rank) ∈ dot_S1024x512_S128x512_S1024x128_1_1_0_0_n_n.rhsNonContracting by decide)]
  rfl
/-- The right operand's column coordinate is the contraction position. -/
theorem rhs_dot_1 (i : S1024x128.Idx) (q : dot_S1024x512_S128x512_S1024x128_1_1_0_0_n_n.contr.Idx) :
    (dot_S1024x512_S128x512_S1024x128_1_1_0_0_n_n.rhsIdx i q 1).val = (q ⟨0, by decide⟩).val :=
  dot_S1024x512_S128x512_S1024x128_1_1_0_0_n_n.rhsIdx_val_of_single rfl i q

/-- The product into a zero accumulator read at `(p, n)`: row `p` of the left operand against row `n` of the right one,
    summed over the 512 shared columns. -/
theorem product_apply (lhs : FVec Ideal S1024x512 .bf16) (rhs : FVec Ideal S128x512 .bf16) (p : Fin 1024) (n : Fin 128) :
    matmul dot_S1024x512_S128x512_S1024x128_1_1_0_0_n_n none lhs rhs (constant (F := Ideal) S1024x128 .f32 0x00000000#32) (ix2 p n)
      = ∑ j : Fin 512, lhs (ix2 p j) * rhs (ix2 n j) := by
  simp only [matmul]
  rw [Ideal.matmul_constant_zero_apply, ← Equiv.sum_comp (contrEquiv1 dot_S1024x512_S128x512_S1024x128_1_1_0_0_n_n 512 rfl rfl).symm]
  refine Finset.sum_congr rfl fun k _ => ?_
  have hk := contrEquiv1_symm_val dot_S1024x512_S128x512_S1024x128_1_1_0_0_n_n 512 rfl rfl k
  have el : dot_S1024x512_S128x512_S1024x128_1_1_0_0_n_n.lhsIdx (ix2 p n) ((contrEquiv1 dot_S1024x512_S128x512_S1024x128_1_1_0_0_n_n 512 rfl rfl).symm k) = ix2 p k := funext fun a => Fin.ext (by
    match a with
    | ⟨0, _⟩ => exact lhs_dot_0 _ _
    | ⟨1, _⟩ => exact (lhs_dot_1 _ _).trans hk)
  have er : dot_S1024x512_S128x512_S1024x128_1_1_0_0_n_n.rhsIdx (ix2 p n) ((contrEquiv1 dot_S1024x512_S128x512_S1024x128_1_1_0_0_n_n 512 rfl rfl).symm k) = ix2 n k := funext fun a => Fin.ext (by
    match a with
    | ⟨0, _⟩ => exact rhs_dot_0 _ _
    | ⟨1, _⟩ => exact (rhs_dot_1 _ _).trans hk)
  rw [el, er]

/-! ## The three payloads -/

/-- The accumulator starts at the zero word everywhere: the extended real `0`. -/
theorem pay1_zero (p : Fin 1024) (n : Fin 128) : k1_pay1 (F := Ideal) (ix2 p n) = 0 := by
  unfold k1_pay1
  exact Ideal.ofBits_zero_f32

/-- One trip: the accumulator plus the product of the activation slice with the trip's dequantized weights. -/
theorem pay2_apply (x2 : Vec Ideal S128x1 .f32) (acc : FVec Ideal S1024x128 .f32) (xk : Vec Ideal S1024x512 .bf16)
    (qk : Vec Ideal S128x256 .i32) (p : Fin 1024) (n : Fin 128) :
    k1_pay2 (F := Ideal) x2 acc xk qk (ix2 p n) = acc (ix2 p n) + ∑ j : Fin 512, xk (ix2 p j) * chunkW qk x2 n j := by
  unfold k1_pay2
  simp only [addf_apply]
  refine congrArg (acc (ix2 p n) + ·) ?_
  refine (product_apply _ _ p n).trans ?_
  refine Finset.sum_congr rfl fun j _ => ?_
  rw [shapeCast_self, weights_apply]

/-- The end: the bias row's entry `n` is added to every row. -/
theorem pay3_apply (v3 : FVec Ideal S1024x128 .f32) (x3 : Vec Ideal S1x128 .f32) (p : Fin 1024) (n : Fin 128) :
    k1_pay3 (F := Ideal) v3 x3 (ix2 p n) = v3 (ix2 p n) + x3 (ix2 0 n) := by
  unfold k1_pay3
  simp only [addf_apply, shapeCast_self]
  exact congrArg (v3 (ix2 p n) + ·) (broadcastTo_1b_ab_apply x3 _ p n)

end Cert.KernelIdeal.Val

end
-- ==== Proof.LinSum.lean ====
/-
  One grid point's output block, entry by entry: the eight trips' partial sums over 512 columns each are the one sum
  over all 4096 columns (addition on the extended reals is commutative and associative, so regrouping needs no
  finiteness), trip `k`'s column `j` being column `512 k + j` of the block, and its weight the nibble of word
  `256 k + j / 2`.
-/
import proofs.«410674_j38019050504445_3_alg».proof.Proof.LinPay
import proofs.«410674_j38019050504445_3_alg».proof.Proof.Spec

noncomputable section

namespace Cert.KernelIdeal.Val

open Cert.KernelIdeal Cert.KernelIdeal.Gen
open Idealize.ShloMosaic Idealize.ShloMosaic.ValueIdx
open scoped BigOperators

/-- The loop over the contraction axis runs eight times. -/
theorem trips_eq_eight : k1_t1_loop.trips = 8 := by decide

/-- Column `512 k + j` lies inside the 4096 columns of the activation block. -/
theorem chunk_col_lt (k : Fin k1_t1_loop.trips) (j : Fin 512) : 512 * k.val + j.val < 4096 := by
  have hk := k.isLt; have ht := trips_eq_eight; have hj := j.isLt; omega

/-- Word `256 k + j'` lies inside the 2048 words of a packed row. -/
theorem chunk_word_lt (k : Fin k1_t1_loop.trips) (j' : Fin 256) : 256 * k.val + j'.val < 2048 := by
  have hk := k.isLt; have ht := trips_eq_eight; have hj := j'.isLt; omega

/-- Trip `k`'s activation slice at `(p, j)` is the block's entry at row `p`, column `512 k + j`. -/
theorem chunkX_apply (x0 : Vec Ideal S1024x4096 .bf16) (k : Fin k1_t1_loop.trips) (p : Fin 1024) (j : Fin 512) :
    chunkX (F := Ideal) x0 k (ix2 p j) = x0 (ix2 p ⟨512 * k.val + j.val, chunk_col_lt k j⟩) := by
  unfold chunkX
  refine congrArg x0 (Shape.idx_ext₂ ?_ ?_)
  · rw [LoadRect.idx_apply]; simp [Rect.unit, k1_off1_eq k]
  · rw [LoadRect.idx_apply]; simp [Rect.unit, k1_off1_eq k]

/-- Trip `k`'s packed slice at `(n, j')` is the block's word at row `n`, position `256 k + j'`. -/
theorem chunkQ_apply (x1 : Vec Ideal S128x2048 .i32) (k : Fin k1_t1_loop.trips) (n : Fin 128) (j' : Fin 256) :
    chunkQ (F := Ideal) x1 k (ix2 n j') = x1 (ix2 n ⟨256 * k.val + j'.val, chunk_word_lt k j'⟩) := by
  unfold chunkQ
  refine congrArg x1 (Shape.idx_ext₂ ?_ ?_)
  · rw [LoadRect.idx_apply]; simp [Rect.unit, k1_off2_eq k]
  · rw [LoadRect.idx_apply]; simp [Rect.unit, k1_off2_eq k]

/-- Trip `k`'s nibble `j` of row `n` is nibble `512 k + j` of the whole packed row: the two positions have the same
    parity and `(512 k + j) / 2 = 256 k + j / 2`. -/
theorem chunkNib_eq (x1 : Vec Ideal S128x2048 .i32) (k : Fin k1_t1_loop.trips) (n : Fin 128) (j : Fin 512) :
    chunkNib (chunkQ (F := Ideal) x1 k) n j = Cert.Spec.nib x1 n ⟨512 * k.val + j.val, chunk_col_lt k j⟩ := by
  have hpar : (512 * k.val + j.val) % 2 = j.val % 2 := by omega
  have hword : chunkQ (F := Ideal) x1 k (ix2 n ⟨j.val / 2, half_lt_256 j⟩)
      = x1 (ix2 n ⟨(512 * k.val + j.val) / 2, Cert.Spec.half_lt ⟨512 * k.val + j.val, chunk_col_lt k j⟩⟩) := by
    rw [chunkQ_apply]
    exact congrArg (fun c => x1 (ix2 n c)) (Fin.ext (by show 256 * k.val + j.val / 2 = (512 * k.val + j.val) / 2; omega))
  unfold chunkNib Cert.Spec.nib
  simp only [hpar, hword]

/-- Hence trip `k`'s dequantized weight `j` of row `n` is the specification's weight at column `512 k + j`. -/
theorem chunkW_eq (x1 : Vec Ideal S128x2048 .i32) (x2 : Vec Ideal S128x1 .f32) (k : Fin k1_t1_loop.trips) (n : Fin 128)
    (j : Fin 512) :
    chunkW (chunkQ (F := Ideal) x1 k) x2 n j = Cert.Spec.wdqAt x1 x2 n ⟨512 * k.val + j.val, chunk_col_lt k j⟩ := by
  unfold chunkW Cert.Spec.wdqAt
  rw [chunkNib_eq]

/-- One term of the contraction, as a function of a natural column number (zero past the last column). -/
def contrTerm (x0 : Vec Ideal S1024x4096 .bf16) (x1 : Vec Ideal S128x2048 .i32) (x2 : Vec Ideal S128x1 .f32) (p : Fin 1024)
    (n : Fin 128) (J : ℕ) : EReal :=
  if h : J < 4096 then x0 (ix2 p ⟨J, h⟩) * Cert.Spec.wdqAt x1 x2 n ⟨J, h⟩ else 0

/-- The accumulator before trip `m` holds the sum of the first `512 m` terms: zero before the first trip, and each trip
    adds the next 512 terms. -/
theorem accum_apply (x0 : Vec Ideal S1024x4096 .bf16) (x1 : Vec Ideal S128x2048 .i32) (x2 : Vec Ideal S128x1 .f32)
    (p : Fin 1024) (n : Fin 128) :
    ∀ m : ℕ, m ≤ k1_t1_loop.trips →
      accum (F := Ideal) x0 x1 x2 m (ix2 p n) = ∑ J ∈ Finset.range (512 * m), contrTerm x0 x1 x2 p n J := by
  intro m
  induction m with
  | zero =>
    intro _
    show k1_pay1 (F := Ideal) (ix2 p n) = _
    rw [pay1_zero, Nat.mul_zero, Finset.range_zero, Finset.sum_empty]
  | succ m ih =>
    intro hm
    have h : m < k1_t1_loop.trips := hm
    have hstep : accum (F := Ideal) x0 x1 x2 (m + 1)
        = k1_pay2 x2 (accum x0 x1 x2 m) (chunkX x0 ⟨m, h⟩) (chunkQ x1 ⟨m, h⟩) := by
      show (if h : m < k1_t1_loop.trips then _ else _) = _
      rw [dif_pos h]
    have hterm : ∀ j : Fin 512, chunkX (F := Ideal) x0 ⟨m, h⟩ (ix2 p j) * chunkW (chunkQ (F := Ideal) x1 ⟨m, h⟩) x2 n j
        = contrTerm x0 x1 x2 p n (512 * m + j.val) := by
      intro j
      rw [chunkX_apply, chunkW_eq]
      unfold contrTerm
      rw [dif_pos (chunk_col_lt ⟨m, h⟩ j)]
    rw [hstep, pay2_apply, ih (Nat.le_of_lt h), Nat.mul_succ, Finset.sum_range_add]
    congr 1
    rw [Finset.sum_congr rfl fun j _ => hterm j]
    exact Fin.sum_univ_eq_sum_range (fun j => contrTerm x0 x1 x2 p n (512 * m + j)) 512

/-- The sum of all 4096 terms by natural column number is the specification's sum over the columns. -/
theorem sum_contrTerm (x0 : Vec Ideal S1024x4096 .bf16) (x1 : Vec Ideal S128x2048 .i32) (x2 : Vec Ideal S128x1 .f32)
    (p : Fin 1024) (n : Fin 128) :
    ∑ J ∈ Finset.range 4096, contrTerm x0 x1 x2 p n J = ∑ J : Fin 4096, x0 (ix2 p J) * Cert.Spec.wdqAt x1 x2 n J :=
  (Finset.sum_fin_eq_sum_range fun J : Fin 4096 => x0 (ix2 p J) * Cert.Spec.wdqAt x1 x2 n J).symm

theorem bodyVal_apply (x0 : Vec Ideal S1024x4096 .bf16) (x1 : Vec Ideal S128x2048 .i32) (x2 : Vec Ideal S128x1 .f32)
    (x3 : Vec Ideal S1x128 .f32) (p : Fin 1024) (n : Fin 128) :
    bodyVal (F := Ideal) x0 x1 x2 x3 (ix2 p n) = Cert.Spec.linAt x0 x1 x2 x3 p n := by
  unfold bodyVal Cert.Spec.linAt
  rw [pay3_apply, accum_apply x0 x1 x2 p n _ (Nat.le_refl _), trips_eq_eight]
  simp only [Nat.reduceMul]
  rw [sum_contrTerm]

end Cert.KernelIdeal.Val

end
-- ==== Proof.LinArr.lean ====
/-
  Region 1's output array after its 16 × 32 grid points: point `(i, j)` writes rows `1024 i …`, columns `128 j …`,
  each entry the layer's value at that row of the activations and that output channel; the blocks tile the array.
-/
import proofs.«410674_j38019050504445_3_alg».proof.Proof.Blocks
import proofs.«410674_j38019050504445_3_alg».proof.Proof.LinBody
import proofs.«410674_j38019050504445_3_alg».proof.Proof.LinSum
import proofs.«410674_j38019050504445_3_alg».proof.Proof.Spec
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The grid has 512 points. -/
theorem grid1_point_lt (t : Fin cfg1.N) : t.val < 512 := t.isLt

/-- The index maps over the grid: point `t` sits at row block `t / 32` and channel block `t % 32`; the activations
    follow the row block, the packed weights, the scales and the bias row the channel block, the output both. -/
theorem grid1_block_index : ∀ t : Fin cfg1.N,
    win1_0.index t (0 : Fin 2) = t.val / 32 ∧ win1_0.index t (1 : Fin 2) = 0
    ∧ win1_1.index t (0 : Fin 2) = t.val % 32 ∧ win1_1.index t (1 : Fin 2) = 0
    ∧ win1_2.index t (0 : Fin 2) = t.val % 32 ∧ win1_2.index t (1 : Fin 2) = 0
    ∧ win1_3.index t (0 : Fin 2) = 0 ∧ win1_3.index t (1 : Fin 2) = t.val % 32
    ∧ win1_4.index t (0 : Fin 2) = t.val / 32 ∧ win1_4.index t (1 : Fin 2) = t.val % 32 :=
  (by decide +kernel : ∀ t : Fin grid1.N, _)

/-- Row `p` of the row block of point `t`, as a row of the whole array: `1024 (t / 32) + p`. -/
def linRow (t : Fin cfg1.N) (p : Fin 1024) : Fin 16384 :=
  ⟨1024 * (t.val / 32) + p.val, by have := grid1_point_lt t; have := p.isLt; omega⟩

/-- Channel `n` of the channel block of point `t`, as a channel of the whole layer: `128 (t % 32) + n`. -/
def linChan (t : Fin cfg1.N) (n : Fin 128) : Fin 4096 :=
  ⟨128 * (t.val % 32) + n.val, by have := n.isLt; omega⟩

/-- The activation block at point `t` is rows `1024 (t / 32) …` of the activations, all columns. -/
theorem aBlk_eq_rows (c : Dev nD) (t : Fin cfg1.N) (p : Fin 1024) (j : Fin 4096) :
    aBlk V c t (ix2 p j) = aArr V c (ix2 (linRow t p) j) := by
  obtain ⟨e00, e01, -⟩ := grid1_block_index t
  show V c main_v0 (((cfg1.win 0).blk t).view.emb (ix2 p j)) = V c main_v0 (ix2 (linRow t p) j)
  refine congrArg (V c main_v0) ?_
  funext a; apply Fin.ext
  match a with
  | ⟨0, _⟩ => show win1_0.index t (0 : Fin 2) * 1024 + 1 * p.val = 1024 * (t.val / 32) + p.val; omega
  | ⟨1, _⟩ => show win1_0.index t (1 : Fin 2) * 4096 + 1 * j.val = j.val; omega

/-- The packed-weight block at point `t` is rows `128 (t % 32) …` of the packed weights, all words. -/
theorem qBlk_eq_rows (c : Dev nD) (t : Fin cfg1.N) (n : Fin 128) (j : Fin 2048) :
    qBlk V c t (ix2 n j) = qArr V c (ix2 (linChan t n) j) := by
  obtain ⟨-, -, e10, e11, -⟩ := grid1_block_index t
  show V c main_arg1 (((cfg1.win 1).blk t).view.emb (ix2 n j)) = V c main_arg1 (ix2 (linChan t n) j)
  refine congrArg (V c main_arg1) ?_
  funext a; apply Fin.ext
  match a with
  | ⟨0, _⟩ => show win1_1.index t (0 : Fin 2) * 128 + 1 * n.val = 128 * (t.val % 32) + n.val; omega
  | ⟨1, _⟩ => show win1_1.index t (1 : Fin 2) * 2048 + 1 * j.val = j.val; omega

/-- The scale block at point `t` is rows `128 (t % 32) …` of the scales. -/
theorem sBlk_eq_rows (c : Dev nD) (t : Fin cfg1.N) (n : Fin 128) :
    sBlk V c t (ix2 n 0) = sArr V c (ix2 (linChan t n) 0) := by
  obtain ⟨-, -, -, -, e20, e21, -⟩ := grid1_block_index t
  show V c main_arg2 (((cfg1.win 2).blk t).view.emb (ix2 n 0)) = V c main_arg2 (ix2 (linChan t n) 0)
  refine congrArg (V c main_arg2) ?_
  funext a; apply Fin.ext
  match a with
  | ⟨0, _⟩ => show win1_2.index t (0 : Fin 2) * 128 + 1 * n.val = 128 * (t.val % 32) + n.val; omega
  | ⟨1, _⟩ => show win1_2.index t (1 : Fin 2) * 1 + 1 * 0 = 0; omega

/-- The bias block at point `t` is columns `128 (t % 32) …` of the bias row. -/
theorem bBlk_eq_cols (c : Dev nD) (t : Fin cfg1.N) (n : Fin 128) :
    bBlk V c t (ix2 0 n) = bArr V c (ix2 0 (linChan t n)) := by
  obtain ⟨-, -, -, -, -, -, e30, e31, -⟩ := grid1_block_index t
  show V c main_v1 (((cfg1.win 3).blk t).view.emb (ix2 0 n)) = V c main_v1 (ix2 0 (linChan t n))
  refine congrArg (V c main_v1) ?_
  funext a; apply Fin.ext
  match a with
  | ⟨0, _⟩ => show win1_3.index t (0 : Fin 2) * 1 + 1 * 0 = 0; omega
  | ⟨1, _⟩ => show win1_3.index t (1 : Fin 2) * 128 + 1 * n.val = 128 * (t.val % 32) + n.val; omega

/-- Entry `(p, n)` of the output block at point `t` sits at row `1024 (t / 32) + p`, column `128 (t % 32) + n` of the
    output array. -/
theorem lin_out_emb (t : Fin cfg1.N) (p : Fin 1024) (n : Fin 128) :
    ((cfg1.win 4).blk t).view.emb (ix2 p n) = ix2 (linRow t p) (linChan t n) := by
  obtain ⟨-, -, -, -, -, -, -, -, e40, e41⟩ := grid1_block_index t
  funext a; apply Fin.ext
  match a with
  | ⟨0, _⟩ => show win1_4.index t (0 : Fin 2) * 1024 + 1 * p.val = 1024 * (t.val / 32) + p.val; omega
  | ⟨1, _⟩ => show win1_4.index t (1 : Fin 2) * 128 + 1 * n.val = 128 * (t.val % 32) + n.val; omega

/-- What point `t` writes back is its block of the layer over the whole arrays: the point computes the layer on its
    blocks, and an entry of the layer reads one row of the activations, one row of the weights and scales and one bias
    entry, which the blocks hold. -/
theorem lin_flushed_eq (c : Dev nD) (t : Fin cfg1.N) :
    (dat1 (F := Ideal) V c).flushed 4 t
      = ((cfg1.win 4).blk t).view.read (Elt Ideal) (Cert.Spec.lin (aArr V c) (qArr V c) (sArr V c) (bArr V c)) := by
  show (cfg1.win 4).cut (grid1.coords t) ((dat1 (F := Ideal) V c).after 4 t) = _
  rw [after1_4, outsAt1_eq V c t]
  funext y
  obtain ⟨p, n, rfl⟩ : ∃ (p : Fin 1024) (n : Fin 128), y = ix2 p n := ⟨y 0, y 1, eq_ix2 y⟩
  show bodyVal (F := Ideal) (aBlk V c t) (qBlk V c t) (sBlk V c t) (bBlk V c t) (ix2 p n)
    = Cert.Spec.lin (aArr V c) (qArr V c) (sArr V c) (bArr V c) (((cfg1.win 4).blk t).view.emb (ix2 p n))
  rw [bodyVal_apply, lin_out_emb t p n]
  show Cert.Spec.linAt (aBlk V c t) (qBlk V c t) (sBlk V c t) (bBlk V c t) p n
    = Cert.Spec.linAt (aArr V c) (qArr V c) (sArr V c) (bArr V c) (linRow t p) (linChan t n)
  exact Cert.Spec.linAt_congr (aBlk V c t) (qBlk V c t) (sBlk V c t) (bBlk V c t) (aArr V c) (qArr V c) (sArr V c) (bArr V c)
    p n (linRow t p) (linChan t n) (fun j => aBlk_eq_rows V c t p j) (fun j' => qBlk_eq_rows V c t n j') (sBlk_eq_rows V c t n)
    (bBlk_eq_cols V c t n)

/-- An index of the output array is in point `t`'s block iff each coordinate is in the block's range on its axis. -/
theorem lin_mem_blk (t : Fin cfg1.N) (i : S16384x4096.Idx) :
    i ∈ ((cfg1.win 4).blk t).view.set
      ↔ ∀ a : Fin 2, win1_4.index t a * S1024x128.size a ≤ (i a).val ∧ (i a).val < win1_4.index t a * S1024x128.size a + S1024x128.size a := by
  show i ∈ ((View.whole main_v2).slice (win1_4.rect t)).set ↔ _
  rw [View.set_slice_whole, Rect.mem_set_unit]
  exact Iff.rfl

/-- The blocks tile the output array: entry `(R, n)` is in the block of the point at row block `R / 1024` and channel
    block `n / 128`. -/
theorem lin_cover (i : S16384x4096.Idx) :
    ∃ t : Fin cfg1.N, (cfg1.win 4).flush t = true ∧ i ∈ ((cfg1.win 4).blk t).view.set := by
  have hi0 : (i 0).val < 16384 := (i 0).isLt
  have hi1 : (i 1).val < 4096 := (i 1).isLt
  have ht : 32 * ((i 0).val / 1024) + (i 1).val / 128 < cfg1.N := by
    show 32 * ((i 0).val / 1024) + (i 1).val / 128 < 512
    omega
  refine ⟨⟨32 * ((i 0).val / 1024) + (i 1).val / 128, ht⟩, flush1_4 _, ?_⟩
  rw [lin_mem_blk]
  obtain ⟨-, -, -, -, -, -, -, -, e40, e41⟩ := grid1_block_index ⟨32 * ((i 0).val / 1024) + (i 1).val / 128, ht⟩
  intro a
  match a with
  | ⟨0, _⟩ =>
    show win1_4.index ⟨32 * ((i 0).val / 1024) + (i 1).val / 128, ht⟩ (0 : Fin 2) * 1024 ≤ (i 0).val
      ∧ (i 0).val < win1_4.index ⟨32 * ((i 0).val / 1024) + (i 1).val / 128, ht⟩ (0 : Fin 2) * 1024 + 1024
    rw [e40]
    show (32 * ((i 0).val / 1024) + (i 1).val / 128) / 32 * 1024 ≤ (i 0).val
      ∧ (i 0).val < (32 * ((i 0).val / 1024) + (i 1).val / 128) / 32 * 1024 + 1024
    omega
  | ⟨1, _⟩ =>
    show win1_4.index ⟨32 * ((i 0).val / 1024) + (i 1).val / 128, ht⟩ (1 : Fin 2) * 128 ≤ (i 1).val
      ∧ (i 1).val < win1_4.index ⟨32 * ((i 0).val / 1024) + (i 1).val / 128, ht⟩ (1 : Fin 2) * 128 + 128
    rw [e41]
    show (32 * ((i 0).val / 1024) + (i 1).val / 128) % 32 * 128 ≤ (i 1).val
      ∧ (i 1).val < (32 * ((i 0).val / 1024) + (i 1).val / 128) % 32 * 128 + 128
    omega

theorem lin_arr (c : Dev nD) :
    (dat1 (F := Ideal) V c).arrAt 4 cfg1.N = Cert.Spec.lin (aArr V c) (qArr V c) (sArr V c) (bArr V c) := by
  exact (dat1 (F := Ideal) V c).arrAt_eq_of_cover 4 (Cert.Spec.lin (aArr V c) (qArr V c) (sArr V c) (bArr V c))
    (fun t _ => lin_flushed_eq V c t) lin_cover

end Cert.KernelIdeal.Val

end
-- ==== Proof.Glue.lean ====
/-
  The kernel's result as a function of its arguments. Region 1 is entered from what region 0 and the one host
  operation between them leave: the quantized activations are region 0's output array, the packed weights and their
  scales are still the launch contents (nothing wrote them), and the bias row is the host's reshape of the bias
  vector to one row. So the result array ends at the layer applied to the row-by-row quantization of `x`.
-/
import proofs.«410674_j38019050504445_3_alg».proof.Proof.RunMain
import proofs.«410674_j38019050504445_3_alg».proof.Proof.QuantArr
import proofs.«410674_j38019050504445_3_alg».proof.Proof.LinArr
import Idealize.ShloMosaic.Lib.StableHlo.Run
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The host operation between the regions writes the bias row only: any other buffer is as region 0 left it. -/
theorem W2_of_ne (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- Region 1 finds the quantized activations region 0 wrote. -/
theorem entry_a (c : Dev nD) : aArr (V2 m ρ) c = Cert.Spec.quant (m ((c : Thread nD τ).loc main_arg0)) :=
  calc aArr (V2 m ρ) c
    _ = W1 m ρ c (Proc.devRef .tc main_v0) := W2_of_ne m ρ c main_v0 (by decide)
    _ = (dat0 (V0 m ρ) c).arrAt 1 cfg0.N := W1_arr m ρ c 1
    _ = Cert.Spec.quant (xArr (V0 m ρ) c) := quant_arr (V0 m ρ) c
    _ = Cert.Spec.quant (m ((c : Thread nD τ).loc main_arg0)) := rfl

/-- It finds the packed weights and the scales as launched. -/
theorem entry_q (c : Dev nD) : qArr (V2 m ρ) c = m ((c : Thread nD τ).loc main_arg1) :=
  calc qArr (V2 m ρ) c
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

theorem entry_s (c : Dev nD) : sArr (V2 m ρ) c = m ((c : Thread nD τ).loc main_arg2) :=
  calc sArr (V2 m ρ) c
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- The bias vector reshaped to one row reads, at column `n`, the vector's entry `n`. -/
theorem reshape_bias (b : (⟨1, ![4096]⟩ : Shape).Idx → EReal) (h : (⟨1, ![4096]⟩ : Shape).ShapeCasts ⟨2, ![1, 4096]⟩) :
    shapeCast (⟨2, ![1, 4096]⟩ : Shape) b h = Cert.Spec.biasRow b := by
  funext i
  obtain ⟨u, n, rfl⟩ : ∃ (u : Fin 1) (n : Fin 4096), i = ix2 u n := ⟨i 0, i 1, eq_ix2 i⟩
  exact shapeCast_a_1a_apply b h u n

/-- It finds the bias row the host's reshape wrote. -/
theorem entry_b (c : Dev nD) : bArr (V2 m ρ) c = Cert.Spec.biasRow (m ((c : Thread nD τ).loc main_arg3)) := by
  have e : (V2 m ρ c main_v1 : S1x4096.Idx → EReal)
      = shapeCast S1x4096 (W1 m ρ c (Proc.devRef .tc main_arg3)) shapeCasts_S4096_S1x4096 := by
    show StableHlo.after hostOps1 (W1 m ρ c) (Proc.devRef .tc main_v1) = _
    after_results
    rfl
  show V2 m ρ c main_v1 = _
  rw [e, W1_of_ne m ρ c main_arg3 (by decide)]
  exact reshape_bias _ _

/-- The result array after the run is the specification of the launch contents. -/
theorem kernel_value (c : Dev nD) :
    W3 m ρ c (Proc.devRef .tc main_v2)
      = Cert.Spec.out (m ((c : Thread nD τ).loc main_arg0)) (m ((c : Thread nD τ).loc main_arg1))
          (m ((c : Thread nD τ).loc main_arg2)) (m ((c : Thread nD τ).loc main_arg3)) := by
  have h := (W3_arr m ρ c 4).trans (lin_arr (V2 m ρ) c)
  rw [entry_a, entry_q, entry_s, entry_b] at h
  exact h

end Cert.KernelIdeal.Val

end
-- ==== Proof.RefQuant.lean ====
/-
  The reference's quantized activations read at an entry: the host's abs, row maximum, division by 127, zero test,
  division, round-to-even, clip and multiplication are, at row `R` and column `k`, the specification's
  quantize-dequantize of row `R` at position `k`.
-/
import proofs.«410674_j38019050504445_3_alg».proof.Proof.Gen.ReferenceIdeal.Read
import proofs.«410674_j38019050504445_3_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx

/-- The index the row reduction inserts at row `R`, position `k'`, is `(R, k')`. -/
theorem lift_row (h : S16384x4096.Reduces [1] S16384) (R : Fin 16384) (k' : Fin 4096) :
    h.lift (ix1 R) k' = ix2 R k' := by
  funext a
  apply Fin.ext
  match a with
  | ⟨0, _⟩ => rfl
  | ⟨1, _⟩ => rfl

/-- The host's maximum of the absolute values along row `R` is that row's largest magnitude. -/
theorem refMax_apply (x0 : (⟨S16384x4096, .f32⟩ : BufTy).Contents (Elt Ideal)) (R : Fin 16384) :
    val_main_v16 (F := Ideal) x0 (ix1 R) = Cert.Spec.rowMax (fun k' => x0 (ix2 R k')) := by
  have hred : S16384x4096.Reduces [1] S16384 := by decide
  unfold val_main_v16
  refine (Host.reduce_eq_fold_single (FloatOps.maximumf (F := Ideal) (φ := .f32)) _ _
    reducesTo_S16384x4096_S16384_d1 hred h_S_ (ix1 R)).trans ?_
  unfold Cert.Spec.rowMax
  exact Finset.fold_congr (fun k' _ =>
    congrArg (fun i => FloatOps.absf (F := Ideal) (φ := .f32) (x0 i)) (lift_row hred R k'))

/-- The host's column of row steps at `(R, 0)` is the specification's scale of row `R`. -/
theorem refScale_apply (x0 : (⟨S16384x4096, .f32⟩ : BufTy).Contents (Elt Ideal)) (R : Fin 16384) :
    val_main_v22 (F := Ideal) x0 (ix2 R 0) = Cert.Spec.rowScale (fun k' => x0 (ix2 R k')) := by
  have hrow : idx_main_v17 (ix2 R 0) = ix1 R :=
    funext fun a => Fin.ext (by match a with | ⟨0, _⟩ => rfl)
  have hmax : val_main_v17 (F := Ideal) x0 (ix2 R 0) = Cert.Spec.rowMax (fun k' => x0 (ix2 R k')) := by
    rw [val_main_v17_apply, hrow]
    exact refMax_apply x0 R
  rw [val_main_v22_apply, val_main_v21_apply, val_main_v19_apply, hmax, val_main_v18_apply, val_main_v20_apply,
    val_main_call0_v1_apply]
  rfl

theorem ref_quant (x0 : (⟨S16384x4096, .f32⟩ : BufTy).Contents (Elt Ideal)) (R : Fin 16384) (k : Fin 4096) :
    val_main_v28 (F := Ideal) x0 (ix2 R k) = Cert.Spec.qrow (fun k' => x0 (ix2 R k')) k := by
  have hcolA : idx_main_v23 (ix2 R k) = ix2 R 0 :=
    funext fun a => Fin.ext (by match a with | ⟨0, _⟩ => rfl | ⟨1, _⟩ => rfl)
  have hcolB : idx_main_v27 (ix2 R k) = ix2 R 0 :=
    funext fun a => Fin.ext (by match a with | ⟨0, _⟩ => rfl | ⟨1, _⟩ => rfl)
  rw [val_main_v28_apply, val_main_v27_apply, hcolB, val_main_v26_apply, val_main_call2_v2_apply, val_main_v25_apply,
    val_main_v24_apply, val_main_v23_apply, hcolA, refScale_apply, val_main_call2_v4_apply, val_main_call2_v1_apply]
  rfl

end Cert.ReferenceIdeal.RefValue

end
-- ==== Proof.RefWeights.lean ====
/-
  The reference's dequantized weights read at an entry: the shifts, masks, the stack of the two nibbles along a new
  last axis and the reshape to [4096, 4096] put, at row `n` and column `j`, the specification's nibble `j` of row
  `n`; converted and scaled it is the specification's weight.
-/
import proofs.«410674_j38019050504445_3_alg».proof.Proof.Gen.ReferenceIdeal.Read
import proofs.«410674_j38019050504445_3_alg».proof.Proof.Spec
import proofs.«410674_j38019050504445_3_alg».proof.Proof.LibInterleave
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx

/-- An arithmetic right shift of a 32-bit word by 4 is the same function on the host and on the vector unit: the
    two differ only where the shift amount is 32 or more. -/
theorem shrsi_four_host (x : BitVec 32) : IntOp.shrsi .host x 4#32 = IntOp.shrsi .vector x 4#32 := by
  unfold IntOp.shrsi
  rw [if_pos (by decide), if_pos (by decide)]

/-- The first stacked array at `(n, k, 0)`: word `(n, k)` shifted right by 4 with its sign, less 8. -/
theorem high_apply (x1 : (⟨S4096x2048, .i32⟩ : BufTy).Contents (Elt Ideal)) (n : Fin 4096) (k : Fin 2048) :
    val_main_v8 (F := Ideal) x1 (ix3 n k 0) = IntOp.subi (IntOp.shrsi .vector (x1 (ix2 n k)) 4#32) 8#32 := by
  have e : idx_main_v8 (ix3 n k 0) = ix2 n k :=
    funext fun a => Fin.ext (by match a with | ⟨0, _⟩ => rfl | ⟨1, _⟩ => rfl)
  rw [val_main_v8_apply, e, val_main_v3_apply, val_main_v1_apply, val_main_v0_apply, val_main_c_apply,
    val_main_v2_apply, val_main_c_0_apply, shrsi_four_host]

/-- The second stacked array at `(n, k, 0)`: the low four bits of word `(n, k)`, less 8. -/
theorem low_apply (x1 : (⟨S4096x2048, .i32⟩ : BufTy).Contents (Elt Ideal)) (n : Fin 4096) (k : Fin 2048) :
    val_main_v9 (F := Ideal) x1 (ix3 n k 0) = IntOp.subi (IntOp.andi (x1 (ix2 n k)) 15#32) 8#32 := by
  have e : idx_main_v9 (ix3 n k 0) = ix2 n k :=
    funext fun a => Fin.ext (by match a with | ⟨0, _⟩ => rfl | ⟨1, _⟩ => rfl)
  rw [val_main_v9_apply, e, val_main_v7_apply, val_main_v5_apply, val_main_v4_apply, val_main_c_1_apply,
    val_main_v6_apply, val_main_c_2_apply]

/-- The stack of the two arrays, flattened to [4096, 4096], at `(n, j)`: the specification's nibble `j` of row `n`
    (the stacked axis is the fastest, so even `j` reads the first array and odd `j` the second, both at `j / 2`). -/
theorem nibbles_apply (x1 : (⟨S4096x2048, .i32⟩ : BufTy).Contents (Elt Ideal)) (n j : Fin 4096) :
    val_main_v11 (F := Ideal) x1 (ix2 n j) = Cert.Spec.nib x1 n j := by
  unfold val_main_v11 val_main_v10
  refine (Cert.Lib.interleave_apply (val_main_v8 (F := Ideal) x1) (val_main_v9 (F := Ideal) x1) _ _ n j
    (Cert.Spec.half_lt j)).trans ?_
  unfold Cert.Spec.nib
  rw [high_apply, low_apply]

theorem ref_w (x1 : (⟨S4096x2048, .i32⟩ : BufTy).Contents (Elt Ideal)) (x2 : (⟨S4096x1, .f32⟩ : BufTy).Contents (Elt Ideal))
    (n j : Fin 4096) :
    val_main_v14 (F := Ideal) x1 x2 (ix2 n j) = Cert.Spec.wdqAt x1 x2 n j := by
  have e : idx_main_v13 (ix2 n j) = ix2 n 0 :=
    funext fun a => Fin.ext (by match a with | ⟨0, _⟩ => rfl | ⟨1, _⟩ => rfl)
  rw [val_main_v14_apply, val_main_v12_apply, val_main_v13_apply, e, nibbles_apply]
  rfl

end Cert.ReferenceIdeal.RefValue

end
-- ==== Proof.RefSpec.lean ====
/-
  The reference's result is the specification: its product of the quantized activations with the transposed weights,
  read at an entry, is the sum over the 4096 columns of the two factors the specification names, and the bias is
  added entry by entry.
-/
import proofs.«410674_j38019050504445_3_alg».proof.Proof.RefQuant
import proofs.«410674_j38019050504445_3_alg».proof.Proof.RefWeights

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The specification at `(R, n)`, written out: the sum over the columns `j` of row `R`'s quantized entry `j` times
    the weight `w[n, j]`, plus the bias at `n`. -/
theorem out_apply (x0 : (⟨S16384x4096, .f32⟩ : BufTy).Contents (Elt Ideal)) (x1 : (⟨S4096x2048, .i32⟩ : BufTy).Contents (Elt Ideal))
    (x2 : (⟨S4096x1, .f32⟩ : BufTy).Contents (Elt Ideal)) (x3 : (⟨S4096, .f32⟩ : BufTy).Contents (Elt Ideal))
    (R : Fin 16384) (n : Fin 4096) :
    Cert.Spec.out x0 x1 x2 x3 (ix2 R n)
      = (∑ j : Fin 4096, Cert.Spec.qrow (fun k' => x0 (ix2 R k')) j * Cert.Spec.wdqAt x1 x2 n j) + x3 (ix1 n) := rfl

/-- The reference's product at `(R, n)`: the contraction runs over the columns `k` of row `R` of the quantized
    activations and, through the transpose, of row `n` of the weights. -/
theorem product_apply (x0 : (⟨S16384x4096, .f32⟩ : BufTy).Contents (Elt Ideal)) (x1 : (⟨S4096x2048, .i32⟩ : BufTy).Contents (Elt Ideal))
    (x2 : (⟨S4096x1, .f32⟩ : BufTy).Contents (Elt Ideal)) (R : Fin 16384) (n : Fin 4096) :
    val_main_v30 (F := Ideal) x0 x1 x2 (ix2 R n)
      = ∑ j : Fin 4096, Cert.Spec.qrow (fun k' => x0 (ix2 R k')) j * Cert.Spec.wdqAt x1 x2 n j := by
  rw [val_main_v30_apply]
  refine Finset.sum_congr rfl fun k _ => ?_
  have el : lidx_main_v30 (ix2 R n) k = ix2 R k :=
    funext fun a => Fin.ext (by match a with | ⟨0, _⟩ => rfl | ⟨1, _⟩ => rfl)
  have er : idx_main_v29 (ridx_main_v30 (ix2 R n) k) = ix2 n k :=
    funext fun a => Fin.ext (by match a with | ⟨0, _⟩ => rfl | ⟨1, _⟩ => rfl)
  rw [el, val_main_v29_apply, er, ref_quant, ref_w]

/-- The reference's broadcast bias at `(R, n)`: entry `n` of the bias vector, whatever the row. -/
theorem bias_apply (x3 : (⟨S4096, .f32⟩ : BufTy).Contents (Elt Ideal)) (R : Fin 16384) (n : Fin 4096) :
    val_main_v32 (F := Ideal) x3 (ix2 R n) = x3 (ix1 n) := by
  have e : idx_main_v31 (idx_main_v32 (ix2 R n)) = ix1 n :=
    funext fun a => Fin.ext (by match a with | ⟨0, _⟩ => rfl)
  rw [val_main_v32_apply, val_main_v31_apply, e]

theorem ref_eq (x0 : (⟨S16384x4096, .f32⟩ : BufTy).Contents (Elt Ideal)) (x1 : (⟨S4096x2048, .i32⟩ : BufTy).Contents (Elt Ideal))
    (x2 : (⟨S4096x1, .f32⟩ : BufTy).Contents (Elt Ideal)) (x3 : (⟨S4096, .f32⟩ : BufTy).Contents (Elt Ideal)) :
    val_main_v33 (F := Ideal) x0 x1 x2 x3 = Cert.Spec.out x0 x1 x2 x3 := by
  funext i
  obtain ⟨R, n, rfl⟩ : ∃ (R : Fin 16384) (n : Fin 4096), i = ix2 R n := ⟨i 0, i 1, eq_ix2 i⟩
  rw [val_main_v33_apply, product_apply, bias_apply, out_apply]
  rfl

end Cert.ReferenceIdeal.RefValue

end
-- ==== Proof.lean ====
/-
  The certificate of a quantized linear layer. The kernel quantizes each row of the activations `x` to signed
  eight-bit steps of that row's own scale (its largest magnitude over 127) and back, unpacks two signed four-bit
  weights from every 32-bit word, scales each output channel's weights, and returns `x_q · wᵀ + bias`; it does so in
  two launches, the second walking the contraction axis in eight slices of 512 columns. The reference computes the
  same formula with whole-array operations.

  Over the extended reals the two agree entry by entry: every format change is the identity, the row maximum is the
  same fold of `max` on both sides, the quantization chain is the same operations on the same entries, the weights
  are the same nibbles (the stacked-and-flattened pair interleaves identically whatever the number of rows and
  words), and the eight partial sums of 512 products regroup into the one sum of 4096, addition on the extended
  reals being commutative and associative. No step needs the inputs to be finite.

  The frames of the two kernel programs are the launch theorem over their regions; the reference's is its run with
  the result dropped; the ideal pass rewrote nothing, so the idealization claim is trivial.
-/
import proofs.«410674_j38019050504445_3_alg».proof.Defs
import proofs.«410674_j38019050504445_3_alg».proof.Proof.Gen.Kernel
import proofs.«410674_j38019050504445_3_alg».proof.Proof.Gen.Kernel.Skeleton
import proofs.«410674_j38019050504445_3_alg».proof.Proof.Gen.Kernel.Loops
import proofs.«410674_j38019050504445_3_alg».proof.Proof.Gen.Kernel.Launch
import proofs.«410674_j38019050504445_3_alg».proof.Proof.Gen.Kernel.Points
import proofs.«410674_j38019050504445_3_alg».proof.Proof.Gen.Kernel.Frame
import proofs.«410674_j38019050504445_3_alg».proof.Proof.Gen.KernelIdeal
import proofs.«410674_j38019050504445_3_alg».proof.Proof.Gen.KernelIdeal.Skeleton
import proofs.«410674_j38019050504445_3_alg».proof.Proof.Gen.KernelIdeal.Loops
import proofs.«410674_j38019050504445_3_alg».proof.Proof.Gen.KernelIdeal.Launch
import proofs.«410674_j38019050504445_3_alg».proof.Proof.Gen.KernelIdeal.Points
import proofs.«410674_j38019050504445_3_alg».proof.Proof.Gen.KernelIdeal.Frame
import proofs.«410674_j38019050504445_3_alg».proof.Proof.Gen.ReferenceIdeal
import proofs.«410674_j38019050504445_3_alg».proof.Proof.Gen.Pre_finite_inputs
import proofs.«410674_j38019050504445_3_alg».proof.Proof.Gen.ReferenceIdeal.Run
import proofs.«410674_j38019050504445_3_alg».proof.Proof.Gen.ReferenceIdeal.Read
import proofs.«410674_j38019050504445_3_alg».proof.Proof.Glue
import proofs.«410674_j38019050504445_3_alg».proof.Proof.RefSpec
import Idealize.ShloMosaic.Adequacy
import Idealize.ShloMosaic.Init

noncomputable section

namespace Cert.Proof

open Idealize.ShloMosaic Idealize.ShloMosaic.TcCoe Idealize.SL.Sem

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with their result array at the specification of the arguments, which agree. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Val.kernel_value m ρ c), (h c).2⟩)
      (Cert.KernelIdeal.Val.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, Cert.ReferenceIdeal.RefValue.ref_eq, (hagree c).1, (hagree c).2.1,
      (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
